-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S16384 : Shape := ⟨1, ![16384]⟩
abbrev S16384x100 : Shape := ⟨2, ![16384, 100]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x100 : S_.BroadcastsInDim S16384x100 (![] : Fin 0 → Fin S16384x100.rank)
  reducesTo_S16384x100_S_d0_1 : S16384x100.ReducesTo [0, 1] S_

variable [Facts]

def fn_part1 {F : FTy → Type} [FloatOps F] (main_arg3 : IVec S16384 32) (main_arg4 : IVec S16384x100 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 100000#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 4294867296#32
  let main_v23 : IVec S16384x100 32 := broadcastInDim S16384x100 ![] bcast_S_S16384x100 main_c_8
  let main_v24 : IVec S16384x100 1 := cmpi .sge main_arg4 main_v23
  let main_c_9 : IVec S_ 32 := constantI S_ 32 100000#32
  let main_v25 : IVec S16384x100 32 := broadcastInDim S16384x100 ![] bcast_S_S16384x100 main_c_9
  let main_v26 : IVec S16384x100 1 := cmpi .slt main_arg4 main_v25
  let main_v27 : IVec S16384x100 1 := andi main_v24 main_v26
  let main_c_10 : IVec S_ 1 := constantI S_ 1 1#1
  let main_v28 : IVec S_ 1 := (fun x v => Host.reduce IntOp.andi x v reducesTo_S16384x100_S_d0_1 h_S_) main_v27 main_c_10
  let main_v29 : IVec S_ 1 := andi main_v22 main_v28
  main_v29

def fn {F : FTy → Type} [FloatOps F] (main_arg0 : FVec F S100000x64 .f32) (main_arg1 : FVec F S100000x64 .f32) (main_arg2 : IVec S16384 32) (main_arg3 : IVec S16384 32) (main_arg4 : IVec S16384x100 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 4294867296#32
  let main_v9 : IVec S16384 32 := broadcastInDim S16384 ![] bcast_S_S16384 main_c_2
  let main_v10 : IVec S16384 1 := cmpi .sge main_arg2 main_v9
  let main_c_3 : IVec S_ 32 := constantI S_ 32 100000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 4294867296#32
  fn_part1 (F := F) main_arg3 main_arg4 main_v15 main_c_5
-- ==== Kernel.lean ====
abbrev S100000x64 : Shape := ⟨2, ![100000, 64]⟩
abbrev S16384 : Shape := ⟨1, ![16384]⟩
abbrev S16384x100 : Shape := ⟨2, ![16384, 100]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x100x1 : Shape := ⟨3, ![16384, 100, 1]⟩
abbrev S1x1x1 : Shape := ⟨3, ![1, 1, 1]⟩
abbrev S16384x100x64 : Shape := ⟨3, ![16384, 100, 64]⟩
abbrev S16x128 : Shape := ⟨2, ![16, 128]⟩
abbrev S128x64 : Shape := ⟨2, ![128, 64]⟩
abbrev S128x100x64 : Shape := ⟨3, ![128, 100, 64]⟩
abbrev S8x128 : Shape := ⟨2, ![8, 128]⟩
abbrev S128 : Shape := ⟨1, ![128]⟩
abbrev S128x1 : Shape := ⟨2, ![128, 1]⟩
abbrev S128x100 : Shape := ⟨2, ![128, 100]⟩
abbrev S128x100x1 : Shape := ⟨3, ![128, 100, 1]⟩
abbrev S128x1x64 : Shape := ⟨3, ![128, 1, 64]⟩

abbrev nBuf : Space → Nat
  | .hbm => 77
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S16384, .i32⟩
  | .hbm, ⟨3, _⟩ => ⟨S16384, .i32⟩
  | .hbm, ⟨4, _⟩ => ⟨S16384x100, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x64, .f32⟩
  | .hbm, ⟨24, _⟩ => ⟨S16384x64, .i1⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S_, .i32⟩
  | .hbm, ⟨52, _⟩ => ⟨S16384x100, .i32⟩
  | .hbm, ⟨53, _⟩ => ⟨S16384x100, .i1⟩
  | .hbm, ⟨54, _⟩ => ⟨S_, .i32⟩
  | .hbm, ⟨55, _⟩ => ⟨S16384x100, .i32⟩
  | .hbm, ⟨56, _⟩ => ⟨S16384x100, .i32⟩
  | .hbm, ⟨57, _⟩ => ⟨S16384x100, .i32⟩
  | .hbm, ⟨58, _⟩ => ⟨S16384x100x1, .i32⟩
  | .hbm, ⟨59, _⟩ => ⟨S1, .i32⟩
  | .hbm, ⟨60, _⟩ => ⟨S_, .i32⟩
  | .hbm, ⟨61, _⟩ => ⟨S16384x100x1, .i32⟩
  | .hbm, ⟨62, _⟩ => ⟨S16384x100x1, .i1⟩
  | .hbm, ⟨63, _⟩ => ⟨S1x1x1, .i32⟩
  | .hbm, ⟨64, _⟩ => ⟨S16384x100x1, .i32⟩
  | .hbm, ⟨65, _⟩ => ⟨S16384x100x1, .i1⟩
  | .hbm, ⟨66, _⟩ => ⟨S16384x100x1, .i1⟩
  | .hbm, ⟨67, _⟩ => ⟨S_, .i1⟩
  | .hbm, ⟨68, _⟩ => ⟨S16384x100, .i1⟩
  | .hbm, ⟨69, _⟩ => ⟨S16384x100x64, .f32⟩
  | .hbm, ⟨70, _⟩ => ⟨S16384x100x64, .i1⟩
  | .hbm, ⟨71, _⟩ => ⟨S_, .f32⟩
  | .hbm, ⟨72, _⟩ => ⟨S16384x100x64, .f32⟩
  | .hbm, ⟨73, _⟩ => ⟨S16384x100x64, .f32⟩
  | .hbm, ⟨74, _⟩ => ⟨S16x128, .f32⟩
  | .hbm, ⟨75, _⟩ => ⟨S_, .f32⟩
  | .hbm, ⟨76, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x100x64, .f32⟩
  | .local _ .vmem, ⟨5, _⟩ => ⟨S128x100x64, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_cst : Ref sig .tc := ⟨.hbm, 75, rfl⟩
abbrev main_v4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v89 : BitVec 1 := Scalar.cmpi .eq arg1 c63_i32
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x100x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S_S16384x100 : S_.BroadcastsInDim S16384x100 (![] : Fin 0 → Fin S16384x100.rank)
  bcast_S16384x100_S16384x100x1_0_1 : S16384x100.BroadcastsInDim S16384x100x1 (![0, 1] : Fin 2 → Fin S16384x100x1.rank)
  bcast_S_S16384x100x1 : S_.BroadcastsInDim S16384x100x1 (![] : Fin 0 → Fin S16384x100x1.rank)
  bcast_S1_S1x1x1_2 : S1.BroadcastsInDim S1x1x1 (![2] : Fin 1 → Fin S1x1x1.rank)
  bcast_S1x1x1_S16384x100x1_0_1_2 : S1x1x1.BroadcastsInDim S16384x100x1 (![0, 1, 2] : Fin 3 → Fin S16384x100x1.rank)
  reducesTo_S16384x100x1_S16384x100_d2 : S16384x100x1.ReducesTo [2] S16384x100
  bcast_S16384x100_S16384x100x64_0_1 : S16384x100.BroadcastsInDim S16384x100x64 (![0, 1] : Fin 2 → Fin S16384x100x64.rank)
  bcast_S_S16384x100x64 : S_.BroadcastsInDim S16384x100x64 (![] : Fin 0 → Fin S16384x100x64.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x100x64_S128x100x64_0_0_0 : ∀ a, (![0, 0, 0] : Fin 3 → Nat) a + S128x100x64.size a ≤ S128x100x64.size a
  h_S128x100x64 : 0 < S128x100x64.numel
  shapeCasts_S128x100x64_S128x100x64 : S128x100x64.ShapeCasts S128x100x64
  reduces_S128x64_S128 : S128x64.Reduces [1] S128
  shapeCasts_S128_S128x1 : S128.ShapeCasts S128x1
  broadcasts_S128x1_S128x64 : S128x1.Broadcasts S128x64
  reduces_S128x100x64_S128x100 : S128x100x64.Reduces [2] S128x100
  shapeCasts_S128x100_S128x100x1 : S128x100.ShapeCasts S128x100x1
  broadcasts_S128x100x1_S128x100x64 : S128x100x1.Broadcasts S128x100x64
  shapeCasts_S128x64_S128x1x64 : S128x64.ShapeCasts S128x1x64
  broadcasts_S128x1x64_S128x100x64 : S128x1x64.Broadcasts S128x100x64
  broadcasts_S128x1_S128x100 : S128x1.Broadcasts S128x100
  reduces_S128x100_S128 : S128x100.Reduces [1] S128
  natLt_1_32 : 1 < 32
  reduces_S128x1_S1 : S128x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  reducesTo_S16x128_S_d0_1 : S16x128.ReducesTo [0, 1] S_
  gather_S100000x64_S16384x1_S16384x64_1_0_n_n_0_1_164_wf : GatherDims.WF S100000x64 S16384x1 S16384x64 [1] [0] [] [0] [] 1 ![1, 64]
  gather_S100000x64_S16384x100x1_S16384x100x64_2_0_n_n_0_2_164_wf : GatherDims.WF S100000x64 S16384x100x1 S16384x100x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .f32 = 32 ∨ (Rect.block (s := S16384x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100x64.size a ≤ S16384x100x64.size a
  hwx0_2 : ∀ i : grid0.Coords, EltTy.bits .f32 = 32 ∨ (Rect.block (s := S16384x100x64) S128x100x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x64_S16384x100x1_S16384x100x64_2_0_n_n_0_2_164 : GatherDims S100000x64 S16384x100x1 S16384x100x64 where
  offsetDims := [2]
  collapsedSliceDims := [0]
  operandBatchingDims := []
  startIndicesBatchingDims := []
  startIndexMap := [0]
  indexVectorDim := 2
  sliceSizes := ![1, 64]
  wf := gather_S100000x64_S16384x100x1_S16384x100x64_2_0_n_n_0_2_164_wf

abbrev win0_0 : Pipeline.Window sig grid0 :=
  Pipeline.Window.ofSpec (Memref.whole main_v0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x100x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S16384 : Shape := ⟨1, ![16384]⟩
abbrev S16384x100 : Shape := ⟨2, ![16384, 100]⟩
abbrev S_ : Shape := ⟨0, ![]⟩
abbrev S16384x1 : Shape := ⟨2, ![16384, 1]⟩
abbrev S16384x64 : Shape := ⟨2, ![16384, 64]⟩
abbrev S16384x100x1 : Shape := ⟨3, ![16384, 100, 1]⟩
abbrev S16384x100x64 : Shape := ⟨3, ![16384, 100, 64]⟩
abbrev S16384x1x64 : Shape := ⟨3, ![16384, 1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S16384, .i32⟩
  | .hbm, ⟨3, _⟩ => ⟨S16384, .i32⟩
  | .hbm, ⟨4, _⟩ => ⟨S16384x100, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x64, .f32⟩
  | .hbm, ⟨26, _⟩ => ⟨S16384x64, .f32⟩
  | .hbm, ⟨27, _⟩ => ⟨S16384x64, .i1⟩
  | .hbm, ⟨28, _⟩ => ⟨S16384x64, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .i1⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x64, .f32⟩
  | .hbm, ⟨50, _⟩ => ⟨S16384x64, .f32⟩
  | .hbm, ⟨51, _⟩ => ⟨S16384x64, .i1⟩
  | .hbm, ⟨52, _⟩ => ⟨S16384x64, .f32⟩
  | .hbm, ⟨53, _⟩ => ⟨S_, .i32⟩
  | .hbm, ⟨54, _⟩ => ⟨S16384x100, .i32⟩
  | .hbm, ⟨55, _⟩ => ⟨S16384x100, .i1⟩
  | .hbm, ⟨56, _⟩ => ⟨S_, .i32⟩
  | .hbm, ⟨57, _⟩ => ⟨S16384x100, .i32⟩
  | .hbm, ⟨58, _⟩ => ⟨S16384x100, .i32⟩
  | .hbm, ⟨59, _⟩ => ⟨S16384x100, .i32⟩
  | .hbm, ⟨60, _⟩ => ⟨S16384x100x1, .i32⟩
  | .hbm, ⟨61, _⟩ => ⟨S16384x100x64, .f32⟩
  | .hbm, ⟨62, _⟩ => ⟨S16384x100x64, .f32⟩
  | .hbm, ⟨63, _⟩ => ⟨S_, .f32⟩
  | .hbm, ⟨64, _⟩ => ⟨S16384x100, .f32⟩
  | .hbm, ⟨65, _⟩ => ⟨S16384x100x1, .f32⟩
  | .hbm, ⟨66, _⟩ => ⟨S16384x100x1, .f32⟩
  | .hbm, ⟨67, _⟩ => ⟨S_, .f32⟩
  | .hbm, ⟨68, _⟩ => ⟨S16384x100x1, .f32⟩
  | .hbm, ⟨69, _⟩ => ⟨S16384x100x1, .i1⟩
  | .hbm, ⟨70, _⟩ => ⟨S_, .f32⟩
  | .hbm, ⟨71, _⟩ => ⟨S16384x100x1, .f32⟩
  | .hbm, ⟨72, _⟩ => ⟨S16384x100x1, .f32⟩
  | .hbm, ⟨73, _⟩ => ⟨S16384x100x64, .f32⟩
  | .hbm, ⟨74, _⟩ => ⟨S16384x100x64, .f32⟩
  | .hbm, ⟨75, _⟩ => ⟨S16384x100x64, .i1⟩
  | .hbm, ⟨76, _⟩ => ⟨S16384x100x64, .f32⟩
  | .hbm, ⟨77, _⟩ => ⟨S16384x64, .f32⟩
  | .hbm, ⟨78, _⟩ => ⟨S16384x64, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x1x64, .f32⟩
  | .hbm, ⟨83, _⟩ => ⟨S16384x100x64, .f32⟩
  | .hbm, ⟨84, _⟩ => ⟨S16384x100x64, .f32⟩
  | .hbm, ⟨85, _⟩ => ⟨S16384x100x64, .f32⟩
  | .hbm, ⟨86, _⟩ => ⟨S_, .f32⟩
  | .hbm, ⟨87, _⟩ => ⟨S16384x100, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x100, .f32⟩
  | .hbm, ⟨92, _⟩ => ⟨S16384x100, .f32⟩
  | .hbm, ⟨93, _⟩ => ⟨S_, .f32⟩
  | .hbm, ⟨94, _⟩ => ⟨S16384x100, .f32⟩
  | .hbm, ⟨95, _⟩ => ⟨S16384x100, .f32⟩
  | .hbm, ⟨96, _⟩ => ⟨S_, .f32⟩
  | .hbm, ⟨97, _⟩ => ⟨S16384, .f32⟩
  | .hbm, ⟨98, _⟩ => ⟨S_, .f32⟩
  | .hbm, ⟨99, _⟩ => ⟨S16384x100, .f32⟩
  | .hbm, ⟨100, _⟩ => ⟨S16384x100, .i1⟩
  | .hbm, ⟨101, _⟩ => ⟨S16384x100, .i32⟩
  | .hbm, ⟨102, _⟩ => ⟨S_, .i32⟩
  | .hbm, ⟨103, _⟩ => ⟨S16384, .i32⟩
  | .hbm, ⟨104, _⟩ => ⟨S16384, .f32⟩
  | .hbm, ⟨105, _⟩ => ⟨S_, .f32⟩
  | .hbm, ⟨106, _⟩ => ⟨S16384, .f32⟩
  | .hbm, ⟨107, _⟩ => ⟨S16384, .f32⟩
  | .hbm, ⟨108, _⟩ => ⟨S_, .f32⟩
  | .hbm, ⟨109, _⟩ => ⟨S16384, .f32⟩
  | .hbm, ⟨110, _⟩ => ⟨S16384, .f32⟩
  | .hbm, ⟨111, _⟩ => ⟨S_, .f32⟩
  | .hbm, ⟨112, _⟩ => ⟨S16384, .f32⟩
  | .hbm, ⟨113, _⟩ => ⟨S16384, .f32⟩
  | .hbm, ⟨114, _⟩ => ⟨S16384, .f32⟩
  | .hbm, ⟨115, _⟩ => ⟨S16384, .f32⟩
  | .hbm, ⟨116, _⟩ => ⟨S_, .f32⟩
  | .hbm, ⟨117, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_v0 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_call2_cst : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_v0 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call4_v0 : Ref sig .tc := ⟨.hbm, 62, rfl⟩
abbrev main_call4_cst : Ref sig .tc := ⟨.hbm, 63, rfl⟩
abbrev main_call4_v1 : Ref sig .tc := ⟨.hbm, 64, rfl⟩
abbrev main_call4_v2 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call5_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_cst_17 : Ref sig .tc := ⟨.hbm, 105, rfl⟩
abbrev main_v66 : Ref sig .tc := ⟨.hbm, 106, rfl⟩
abbrev main_v67 : Ref sig .tc := ⟨.hbm, 107, rfl⟩
abbrev main_cst_18 : Ref sig .tc := ⟨.hbm, 108, rfl⟩
abbrev main_v68 : Ref sig .tc := ⟨.hbm, 109, rfl⟩
abbrev main_v69 : Ref sig .tc := ⟨.hbm, 110, rfl⟩
abbrev main_cst_19 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_20 : Ref sig .tc := ⟨.hbm, 116, rfl⟩
abbrev main_v74 : Ref sig .tc := ⟨.hbm, 117, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S_S16384x100 : S_.BroadcastsInDim S16384x100 (![] : Fin 0 → Fin S16384x100.rank)
  bcast_S16384x100_S16384x100x1_0_1 : S16384x100.BroadcastsInDim S16384x100x1 (![0, 1] : Fin 2 → Fin S16384x100x1.rank)
  reducesTo_S16384x100x64_S16384x100_d2 : S16384x100x64.ReducesTo [2] S16384x100
  bcast_S_S16384x100x1 : S_.BroadcastsInDim S16384x100x1 (![] : Fin 0 → Fin S16384x100x1.rank)
  bcast_S16384x100x1_S16384x100x64_0_1_2 : S16384x100x1.BroadcastsInDim S16384x100x64 (![0, 1, 2] : Fin 3 → Fin S16384x100x64.rank)
  bcast_S16384x64_S16384x1x64_0_2 : S16384x64.BroadcastsInDim S16384x1x64 (![0, 2] : Fin 2 → Fin S16384x1x64.rank)
  bcast_S16384x1x64_S16384x100x64_0_1_2 : S16384x1x64.BroadcastsInDim S16384x100x64 (![0, 1, 2] : Fin 3 → Fin S16384x100x64.rank)
  bcast_S16384x1_S16384x100_0_1 : S16384x1.BroadcastsInDim S16384x100 (![0, 1] : Fin 2 → Fin S16384x100.rank)
  reducesTo_S16384x100_S16384_d1 : S16384x100.ReducesTo [1] S16384
  natLt_1_32 : 1 < 32
  reducesTo_S16384_S_d0 : S16384.ReducesTo [0] S_
  gather_S100000x64_S16384x1_S16384x64_1_0_n_n_0_1_164_wf : GatherDims.WF S100000x64 S16384x1 S16384x64 [1] [0] [] [0] [] 1 ![1, 64]
  gather_S100000x64_S16384x100x1_S16384x100x64_2_0_n_n_0_2_164_wf : GatherDims.WF S100000x64 S16384x100x1 S16384x100x64 [2] [0] [] [0] [] 2 ![1, 64]

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x64_S16384x100x1_S16384x100x64_2_0_n_n_0_2_164 : GatherDims S100000x64 S16384x100x1 S16384x100x64 where
  offsetDims := [2]
  collapsedSliceDims := [0]
  operandBatchingDims := []
  startIndicesBatchingDims := []
  startIndexMap := [0]
  indexVectorDim := 2
  sliceSizes := ![1, 64]
  wf := gather_S100000x64_S16384x100x1_S16384x100x64_2_0_n_n_0_2_164_wf

class Facts : Prop extends Facts₀ where

variable [Facts]
-- ==== Proof.KernelAcc.lean ====
/-
  What one grid point leaves behind.  The kernel keeps one running total per core in a 1 x 1 scratch.
  At a point it computes the column of its block's 128 row terms, sums the column and adds the sum to
  the scratch (step); at the first point of a core's 64 the scratch is first reset to zero, and at the
  last it then fills the core's 8 x 128 output block with zeros and stores the scratch at entry (0, 0).
  These are the values the three control cases of the body leave in the scratch and in the output
  block, read off the stores the body makes: a later store hides an earlier one where they overlap.
-/
import proofs.«409849_j21861383537472_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.AccValue

open Cert.KernelIdeal Cert.KernelIdeal.Gen Idealize.ShloMosaic Idealize.ShloMosaic.TcCoe Idealize.SL.Sem
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch after a point: the old scratch plus the sum of the block's row terms. -/
def step (x0 x1 : Vec F S128x64 .f32) (x2 : Vec F S128x100x64 .f32) (acc : Vec F S1x1 .f32) : Vec F S1x1 .f32 :=
  k0_pay1 (k0_pay7 (k0_pay4 x2) (k0_pay5 x0) (k0_pay6 x0 x1)) acc

/-- First point of a core: the scratch is reset, then the block's sum is added. -/
theorem sout_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x100x64 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 x1 : Vec F S128x64 .f32) (x2 : Vec F S128x100x64 .f32) :
    sout0_A_0 c i arg2 harg2 arg3 harg3 arg4 harg4 arg5 harg5 arg6 harg6 hc0 hc1 x0 x1 x2 = step x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2]
  unfold step
  simp only [View.readAt_eq_ld, harg2.read_unread, harg3.read_unread, harg4.read_unread,
    View.ld_unit_zero (S := S128x64) hz2, View.ld_unit_zero (S := S128x100x64) hz3,
    View.readCov_unit_zero (S := S1x1) _ hz2]

/-- A middle point: the block's sum is added to what the point before left. -/
theorem sout_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x100x64 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 x1 : Vec F S128x64 .f32) (x2 : Vec F S128x100x64 .f32) (xs0 : Vec F S1x1 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1) hz2]
  unfold step
  simp only [View.readAt_eq_ld, harg2.read_unread, harg3.read_unread, harg4.read_unread, harg6.read_unread,
    View.ld_unit_zero (S := S128x64) hz2, View.ld_unit_zero (S := S128x100x64) hz3, View.ld_unit_zero (S := S1x1) hz2]

/-- Last point of a core, the scratch: as at a middle point. -/
theorem sout_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x100x64 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 x1 : Vec F S128x64 .f32) (x2 : Vec F S128x100x64 .f32) (xs0 : Vec F S1x1 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1) hz2]
  unfold step
  simp only [View.readAt_eq_ld, harg2.read_unread, harg3.read_unread, harg4.read_unread, harg6.read_unread,
    View.ld_unit_zero (S := S128x64) hz2, View.ld_unit_zero (S := S128x100x64) hz3, View.ld_unit_zero (S := S1x1) hz2]

/-- Last point of a core, the output block: zero everywhere but at (0, 0), where it holds the scratch just stored. -/
theorem out_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x100x64 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 x1 : Vec F S128x64 .f32) (x2 : Vec F S128x100x64 .f32) (xs0 : Vec F S1x1 .f32) (y : S8x128.Idx) :
    out0_C_3 c i arg2 harg2 arg3 harg3 arg4 harg4 arg5 harg5 arg6 harg6 hc0 hc1 x0 x1 x2 xs0 y
      = if (y 0).val = 0 ∧ (y 1).val = 0 then step x0 x1 x2 xs0 (ix2 0 0) else k0_pay2 y := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  by_cases hy : (y 0).val = 0 ∧ (y 1).val = 0
  · rw [if_pos hy]
    have e : y = (Rect.unit ![0, 0] ![1, 1] inb_S8x128_S1x1_0_0).emb (ix2 (0 : Fin 1) (0 : Fin 1)) :=
      funext fun a => Fin.ext (by
        match a with
        | ⟨0, _⟩ => exact hy.1
        | ⟨1, _⟩ => exact hy.2)
    rw [e, View.canon_cons_emb, View.readCov_unit_zero (S := S1x1) _ hz2]
    unfold step
    simp only [View.readAt_eq_ld, harg2.read_unread, harg3.read_unread, harg4.read_unread, harg6.read_unread,
      View.ld_unit_zero (S := S128x64) hz2, View.ld_unit_zero (S := S128x100x64) hz3, View.ld_unit_zero (S := S1x1) hz2]
  · rw [if_neg hy, View.canon_cons_of_not_mem _ _ (by
      rw [Rect.mem_set_unit]
      intro h
      have h0 := h 0
      have h1 := h 1
      apply hy
      constructor
      · have := h0.2; simp at this; omega
      · have := h1.2; simp at this; omega), View.canon_unit_zero (S := S8x128) hz2]

end Cert.KernelIdeal.AccValue

end
-- ==== Proof.KernelSum.lean ====
/-
  The running total.  On the extended reals a point's step is: the old total plus the sum over the
  block's 128 rows of the row terms.  So the scratch after point n of the grid holds the sum of the
  block sums of the points of n's core visited so far, the points 64 * (n / 64), ..., n: the first
  point of a core starts the sum again at zero (by induction on the point, one case of the body at a
  time).  After a core's last point its output block holds this total at entry (0, 0) and zero
  elsewhere.
-/
import proofs.«409849_j21861383537472_3_alg».proof.Proof.KernelAcc
import Idealize.ShloMosaic.PureOps.Ideal.Laws
import Mathlib.Algebra.BigOperators.Intervals

set_option maxRecDepth 16384

noncomputable section

namespace Cert.KernelIdeal.AccValue

open Cert.KernelIdeal Cert.KernelIdeal.Gen Idealize.ShloMosaic Idealize.ShloMosaic.TcCoe Idealize.SL.Sem
open Idealize.ShloMosaic.ValueIdx

/-- The 1 x 1 shape has one index. -/
theorem idx11 (y : S1x1.Idx) : y = ix2 (0 : Fin 1) (0 : Fin 1) :=
  funext fun a => Fin.ext (by
    match a with
    | ⟨0, _⟩ => have := (y 0).isLt; simp at this ⊢; omega
    | ⟨1, _⟩ => have := (y 1).isLt; simp at this ⊢; omega)

/-- The sum of a column of 128 values along its long axis, on the extended reals. -/
theorem colsum (v : FVec Ideal S128x1 .f32) (h : S128x1.Reduces [0] S1) (hφ : FKind.Formats .f32)
    (hacc : (0x00000000#32 : BitVec 32) = 0x00000000#32) :
    multiReduction .add [0] S1 v 0x00000000#32 h hφ hacc (ix1 (0 : Fin 1)) = ∑ p : Fin 128, v (ix2 p (0 : Fin 1)) :=
  (Ideal.multiReduction_add_single v 0x00000000#32 h hφ hacc (ix1 (0 : Fin 1))).trans
    (Finset.sum_congr rfl fun p _ => congrArg v (funext fun a => Fin.ext (by
      match a with
      | ⟨0, _⟩ => rfl
      | ⟨1, _⟩ => rfl)))

/-- The step on the extended reals: the old total plus the sum of the block's 128 row terms. -/
theorem step_apply (x0 x1 : Vec Ideal S128x64 .f32) (x2 : Vec Ideal S128x100x64 .f32) (acc : Vec Ideal S1x1 .f32)
    (y : S1x1.Idx) :
    step (F := Ideal) x0 x1 x2 acc y
      = acc y + ∑ p : Fin 128, k0_pay7 (F := Ideal) (k0_pay4 (F := Ideal) x2) (k0_pay5 (F := Ideal) x0) (k0_pay6 (F := Ideal) x0 x1) (ix2 p (0 : Fin 1)) := by
  unfold step k0_pay1
  rw [shapeCast_self]
  show acc y + _ = _
  refine congrArg (acc y + ·) ?_
  rw [shapeCast_apply _ _ y (ix1 (0 : Fin 1)) (by
    rw [Shape.rowMajor_val_one, Shape.rowMajor_val_two]
    have h0 := (y 0).isLt; have h1 := (y 1).isLt
    simp at h0 h1 ⊢; omega)]
  exact colsum _ _ _ _

variable (m : (ℓ : Loc nD τ sig) → Buf (Elt Ideal) ℓ)

/-- The three input blocks of point t, at their literal types. -/
abbrev xu (c : Dev nD) (t : Fin cfg0.N) : Vec Ideal S128x64 .f32 := iblk m c 0 t
abbrev xv (c : Dev nD) (t : Fin cfg0.N) : Vec Ideal S128x64 .f32 := iblk m c 1 t
abbrev xw (c : Dev nD) (t : Fin cfg0.N) : Vec Ideal S128x100x64 .f32 := iblk m c 2 t

/-- The sum of the row terms of point t's block. -/
def blockSum (c : Dev nD) (t : Fin cfg0.N) : EReal :=
  ∑ p : Fin 128, k0_pay7 (F := Ideal) (k0_pay4 (F := Ideal) (xw m c t)) (k0_pay5 (F := Ideal) (xu m c t))
    (k0_pay6 (F := Ideal) (xu m c t) (xv m c t)) (ix2 p (0 : Fin 1))

/-- The block sums as a function on the naturals (zero past the grid). -/
def blockSumN (c : Dev nD) (s : ℕ) : EReal := if h : s < cfg0.N then blockSum m c ⟨s, h⟩ else 0

theorem blockSumN_of_lt (c : Dev nD) (s : ℕ) (h : s < cfg0.N) : blockSumN m c s = blockSum m c ⟨s, h⟩ := dif_pos h

/-- The reset value of the scratch is zero. -/
theorem reset_apply (y : S1x1.Idx) : k0_pay3 (F := Ideal) y = 0 := by
  unfold k0_pay3
  rw [shapeCast_self]
  exact Ideal.ofBits_zero_f32

/-- The scratch after point n holds the sum of the block sums of n's core so far. -/
theorem acc_eq (c : Dev nD) : ∀ (n : ℕ) (h : n < cfg0.N) (y : S1x1.Idx),
    (outsAt0 m c n h).2 y = ∑ s ∈ Finset.Icc (n / 64 * 64) n, blockSumN m c s
  | 0, h, y => by
    rw [outsAt0_A m c ⟨0, h⟩ rfl (by dsimp only; omega)]
    dsimp only
    rw [sout_A, step_apply, reset_apply, zero_add]
    show blockSum m c ⟨0, h⟩ = _
    rw [show (0 / 64 * 64 : ℕ) = 0 from rfl, Finset.Icc_self, Finset.sum_singleton, blockSumN_of_lt m c 0 h]
  | n + 1, h, y => by
    have hN : cfg0.N = 128 := N_0
    by_cases h0 : (n + 1) % 64 = 0
    · have h1 : ¬(n + 1) % 64 = 63 := by omega
      rw [outsAt0_A m c ⟨n + 1, h⟩ h0 h1]
      dsimp only
      rw [sout_A, step_apply, reset_apply, zero_add]
      show blockSum m c ⟨n + 1, h⟩ = _
      rw [show (n + 1) / 64 * 64 = n + 1 from by omega, Finset.Icc_self, Finset.sum_singleton, blockSumN_of_lt m c (n + 1) h]
    · have ha : (n + 1) / 64 * 64 = n / 64 * 64 := by omega
      have hle : n / 64 * 64 ≤ n + 1 := by omega
      rw [ha, Finset.sum_Icc_succ_top hle, blockSumN_of_lt m c (n + 1) h, ← acc_eq c n (Nat.lt_of_succ_lt h) y]
      by_cases h1 : (n + 1) % 64 = 63
      · rw [outsAt0_C m c ⟨n + 1, h⟩ h0 h1]
        dsimp only
        rw [sout_C, step_apply]
        rfl
      · rw [outsAt0_B m c ⟨n + 1, h⟩ h0 h1]
        dsimp only
        rw [sout_B, step_apply]
        rfl

end Cert.KernelIdeal.AccValue

end
-- ==== Proof.Sums.lean ====
/-
  Regrouping the batch sum.  The loss is a sum of one term per row over the 16384 rows.  The kernel
  visits the rows in 128 blocks of 128 consecutive rows (block t holds rows 128 t + p, p < 128), the
  first 64 blocks on one core and the last 64 on the other, each core adding its blocks' sums into
  an accumulator of its own; the two accumulators are added at the end.  Addition on the extended
  reals is commutative and associative, so every grouping gives the same sum: these are the
  regrouping identities, over any commutative additive monoid.
-/
import Mathlib.Algebra.BigOperators.Fin
import Mathlib.Algebra.BigOperators.Intervals
import Mathlib.Algebra.Order.BigOperators.Group.Finset
import Mathlib.Logic.Equiv.Fin.Basic

namespace Cml

open Finset

/-- A sum over a * b consecutive rows is the sum over the a blocks of the sum over a block's b rows
    (row p of block t is row p + b * t). -/
theorem sum_by_blocks {M : Type} [AddCommMonoid M] {a b : ℕ} (f : Fin (a * b) → M) :
    ∑ r : Fin (a * b), f r = ∑ t : Fin a, ∑ p : Fin b, f (finProdFinEquiv (t, p)) := by
  rw [← Fintype.sum_prod_type']
  exact (Fintype.sum_equiv finProdFinEquiv _ _ (fun _ => rfl)).symm

/-- A sum over the first n naturals of a function that is given on Fin n. -/
theorem sum_fin_as_range {M : Type} [AddCommMonoid M] {n : ℕ} (g : Fin n → M) (z : M) :
    ∑ t : Fin n, g t = ∑ s ∈ range n, (if h : s < n then g ⟨s, h⟩ else z) := by
  rw [Finset.sum_range]
  exact Finset.sum_congr rfl fun t _ => by rw [dif_pos t.isLt]

/-- Two consecutive segments of 64 make the first 128 naturals. -/
theorem sum_two_segments {M : Type} [AddCommMonoid M] (g : ℕ → M) :
    ∑ s ∈ Icc 0 63, g s + ∑ s ∈ Icc 64 127, g s = ∑ s ∈ range 128, g s := by
  have h1 : Icc 0 63 = range 64 := by ext x; simp [Nat.lt_succ_iff]
  have h2 : Icc 64 127 = Ico 64 128 := by ext x; simp; omega
  rw [h1, h2, Finset.range_eq_Ico, Finset.sum_Ico_consecutive g (by omega) (by omega), Finset.range_eq_Ico]

end Cml
-- ==== Proof.KernelFinal.lean ====
/-
  The kernel's result.  Each core's 8 x 128 output block is written back once, after the core's last
  point, holding the core's total at entry (0, 0) and zero elsewhere; the two blocks tile the 16 x 128
  output array.  The program then sums the whole array: the zeros contribute nothing, so the result is
  the first core's total plus the second's, the sum of all 128 block sums.
-/
import proofs.«409849_j21861383537472_3_alg».proof.Proof.KernelSum
import proofs.«409849_j21861383537472_3_alg».proof.Proof.Sums
import Idealize.ShloMosaic.Lib.StableHlo.Run

set_option maxRecDepth 16384

noncomputable section

namespace Cert.KernelIdeal.AccValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Core k's total: the sum of the block sums of its 64 points. -/
def coreTotal (c : Dev nD) (k : ℕ) : EReal := ∑ s ∈ Finset.Icc (k * 64) (k * 64 + 63), blockSumN m c s

/-- What the output array ends holding: core k's total at (8 k, 0), zero elsewhere. -/
def outArr (c : Dev nD) : S16x128.Idx → EReal := fun y =>
  if (y 0).val % 8 = 0 ∧ (y 1).val = 0 then coreTotal m c ((y 0).val / 8) else 0

/-- The zero fill is zero. -/
theorem zero_fill (y : S8x128.Idx) : k0_pay2 (F := Ideal) y = 0 := by
  unfold k0_pay2
  exact Ideal.ofBits_zero_f32

/-- The output window's block index at point t: (t / 64, 0). -/
theorem idx_facts3 : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)

/-- What a core's last point writes back is its block of outArr. -/
theorem flushed3_eq (c : Dev nD) (t : Fin cfg0.N) (hf : (cfg0.win 3).flush t = true) :
    (dats m 0 c).flushed 3 t = ((cfg0.win 3).blk t).view.read (Elt Ideal) (outArr m c) := by
  have hN : cfg0.N = 128 := N_0
  have ht : t.val < 128 := lt_of_lt_of_eq t.isLt hN
  have h63 : t.val % 64 = 63 := (flush0_3 t).mp hf
  have h0 : ¬t.val % 64 = 0 := by omega
  have hs : step (F := Ideal) (xu m c t) (xv m c t) (xw m c t) (outsAt0 m c (t.val - 1) (Nat.lt_of_le_of_lt (Nat.sub_le _ _) t.isLt)).2
      = (outsAt0 m c t.val t.isLt).2 := by
    rw [outsAt0_C m c t h0 h63]
    dsimp only
    rw [sout_C]
  show (cfg0.win 3).cut (grid0.coords t) ((dats m 0 c).after 3 t) = _
  rw [after0_3, outsAt0_C m c t h0 h63]
  dsimp only
  obtain ⟨e0, e1⟩ := idx_facts3 t
  funext j
  show out0_C_3 c (grid0.coords t) (ms0_0 t) (hs0_0 t) (ms0_1 t) (hs0_1 t) (ms0_2 t) (hs0_2 t) (ms0_3 t) (hs0_3 t) scM0_0 (Memref.isWhole_whole _) _ _ (xu m c t) (xv m c t) (xw m c t) (outsAt0 m c (t.val - 1) _).2 j
    = outArr m c (((cfg0.win 3).blk t).view.emb j)
  rw [out_C, hs, acc_eq m c t.val t.isLt, zero_fill]
  have hj0 : (j 0).val < 8 := (j 0).isLt
  have hj1 : (j 1).val < 128 := (j 1).isLt
  have q0 : ((((cfg0.win 3).blk t).view.emb j) 0).val = win0_3.index t (0 : Fin 2) * 8 + 1 * (j 0).val := rfl
  have q1 : ((((cfg0.win 3).blk t).view.emb j) 1).val = win0_3.index t (1 : Fin 2) * 128 + 1 * (j 1).val := rfl
  unfold outArr
  by_cases hj : (j 0).val = 0 ∧ (j 1).val = 0
  · rw [if_pos hj, if_pos (by rw [q0, q1, e0, e1]; omega)]
    unfold coreTotal
    rw [q0, e0, show (t.val / 64 * 8 + 1 * (j 0).val) / 8 * 64 = t.val / 64 * 64 from by omega,
      show t.val / 64 * 64 + 63 = t.val from by omega]
  · rw [if_neg hj, if_neg (by rw [q0, q1, e0, e1]; omega)]

/-- An index of the output array is in point t's block iff each coordinate is in the block's range. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v3).slice (win0_3.rect t)).set ↔ _
  rw [View.set_slice_whole, Rect.mem_set_unit]
  exact Iff.rfl

/-- The output array after the run. -/
theorem final3 (c : Dev nD) : (dats m 0 c).arrAt 3 cfg0.N = outArr m c :=
  (dats m 0 c).arrAt_eq_of_cover 3 (outArr m c) (flushed3_eq m c) fun i => by
    have hN : cfg0.N = 128 := N_0
    have hi0 : (i 0).val < 16 := (i 0).isLt
    have hi1 : (i 1).val < 128 := (i 1).isLt
    have ht : (i 0).val / 8 * 64 + 63 < cfg0.N := by omega
    obtain ⟨e0, e1⟩ := idx_facts3 ⟨(i 0).val / 8 * 64 + 63, ht⟩
    refine ⟨⟨(i 0).val / 8 * 64 + 63, ht⟩, (flush0_3 _).mpr (by dsimp only; omega), ?_⟩
    rw [mem_blk3]
    intro a
    match a with
    | ⟨0, _⟩ =>
      show win0_3.index ⟨(i 0).val / 8 * 64 + 63, ht⟩ (0 : Fin 2) * 8 ≤ (i 0).val ∧ (i 0).val < win0_3.index ⟨(i 0).val / 8 * 64 + 63, ht⟩ (0 : Fin 2) * 8 + 8
      rw [e0]; dsimp only; omega
    | ⟨1, _⟩ =>
      show win0_3.index ⟨(i 0).val / 8 * 64 + 63, ht⟩ (1 : Fin 2) * 128 ≤ (i 1).val ∧ (i 1).val < win0_3.index ⟨(i 0).val / 8 * 64 + 63, ht⟩ (1 : Fin 2) * 128 + 128
      rw [e1]; omega

end Cert.KernelIdeal.AccValue

end
-- ==== Proof.KernelRun.lean ====
/-
  The kernel's run, read.  After the region the program sums the 16 x 128 output array.  That array
  holds the first core's total at (0, 0), the second's at (8, 0) and zero elsewhere, so the sum is the
  two totals added: the sum over all 128 points of the grid of the points' block sums.
-/
import proofs.«409849_j21861383537472_3_alg».proof.Proof.KernelFinal

set_option maxRecDepth 16384

noncomputable section

namespace Cert.KernelIdeal.AccValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The sum of the output array: the two cores' totals, that is the sum of all block sums. -/
theorem sum_outArr (c : Dev nD) : ∑ y : S16x128.Idx, outArr m c y = ∑ s ∈ Finset.range 128, blockSumN m c s := by
  rw [sum_idx2]
  have inner : ∀ a : Fin 16, ∑ b : Fin 128, outArr m c (ix2 a b) = if a.val % 8 = 0 then coreTotal m c (a.val / 8) else 0 := by
    intro a
    rw [Finset.sum_eq_single (0 : Fin 128)]
    · unfold outArr
      by_cases ha : a.val % 8 = 0
      · rw [if_pos ha, if_pos ⟨ha, rfl⟩]
      · rw [if_neg ha, if_neg (fun h => ha h.1)]
    · intro b _ hb
      unfold outArr
      rw [if_neg (fun h => hb (Fin.ext h.2))]
    · intro h; exact absurd (Finset.mem_univ _) h
  rw [Finset.sum_congr rfl fun a _ => inner a]
  rw [Finset.sum_eq_add (0 : Fin 16) (8 : Fin 16) (by decide)
    (fun a _ ha => by
      have h1 : a.val ≠ 0 := fun h => ha.1 (Fin.ext h)
      have h2 : a.val ≠ 8 := fun h => ha.2 (Fin.ext h)
      have h3 : a.val < 16 := a.isLt
      rw [if_neg (by omega)])
    (fun h => absurd (Finset.mem_univ _) h) (fun h => absurd (Finset.mem_univ _) h)]
  show coreTotal m c 0 + coreTotal m c 1 = _
  unfold coreTotal
  exact Cml.sum_two_segments (blockSumN m c)

/-- The program's result buffer after the run. -/
theorem tail_value (c : Dev nD) :
    Pipeline.afterTail₀ cfgs (dats m) 0 (V0 m) [hostOps1] c main_v4 = fun _ => ∑ s ∈ Finset.range 128, blockSumN m c s := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3) = outArr m c :=
    (Pipeline.withArrays_arr spec0 launch0.win.arr_inj c _ _ 3).trans (final3 m c)
  rw [e]
  funext i
  simp only [Host.reduceAdd, Ideal.hostReduceAdd_def]
  refine (Ideal.hostReduceAdd_total reducesTo_S16x128_S_d0_1 (fun b => b.elim0) (outArr m c) _ i).trans ?_
  rw [sum_outArr]
  show Ideal.ofBits .f32 0x00000000#32 + _ = _
  rw [Ideal.ofBits_zero_f32, zero_add]

/-- Every execution of the kernel's program ends with the result buffer at the sum of the block sums and the
    arguments unchanged. -/
theorem run : θ_run defs (onTc (τ := τ) (main (F := Ideal))) ⟨m, fun _ => 0, ρ⟩ fun r => ∀ c : Dev nD,
      r.2.mem ((c.tc : Thread nD τ).loc main_v4) = (fun _ => ∑ s ∈ Finset.range 128, blockSumN m c s)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.AccValue

end
-- ==== Proof.KernelBlocks.lean ====
/-
  A block's rows are the array's rows.  Point t of the grid (t = 64 * core + step) reads block t of each
  input array: rows 128 t, ..., 128 t + 127.  So row p of the user block at point t is row p + 128 t of
  the user array the region found, and likewise for the positive and the negative items.
-/
import proofs.«409849_j21861383537472_3_alg».proof.Proof.KernelSum

set_option maxRecDepth 16384

noncomputable section

namespace Cert.KernelIdeal.AccValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The input windows' block indices at point t: block t along the rows, block 0 along every other axis. -/
theorem idx_facts_u : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts_v : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_facts_w : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- The batch row that row p of block t is. -/
def rowOf (t : Fin cfg0.N) (p : Fin 128) : Fin 16384 :=
  ⟨p.val + 128 * t.val, by have h1 := t.isLt; have h2 : cfg0.N = 128 := N_0; have h3 := p.isLt; omega⟩

set_option maxHeartbeats 100000 in
theorem xu_apply (c : Dev nD) (t : Fin cfg0.N) (p : Fin 128) (d : Fin 64) :
    xu m c t (ix2 p d) = V m c main_v0 (ix2 (rowOf t p) d) := by
  obtain ⟨e0, e1⟩ := idx_facts_u t
  have he : ((cfg0.win 0).blk t).view.emb (ix2 p d) = ix2 (rowOf t p) d := by
    funext a; apply Fin.ext
    match a with
    | ⟨0, _⟩ => show win0_0.index t (0 : Fin 2) * 128 + 1 * p.val = p.val + 128 * t.val; rw [e0]; omega
    | ⟨1, _⟩ => show win0_0.index t (1 : Fin 2) * 64 + 1 * d.val = d.val; rw [e1]; omega
  show iblk m c 0 t (ix2 p d) = _
  unfold iblk
  rw [View.read_apply, he]
  rfl

set_option maxHeartbeats 100000 in
theorem xv_apply (c : Dev nD) (t : Fin cfg0.N) (p : Fin 128) (d : Fin 64) :
    xv m c t (ix2 p d) = V m c main_v1 (ix2 (rowOf t p) d) := by
  obtain ⟨e0, e1⟩ := idx_facts_v t
  have he : ((cfg0.win 1).blk t).view.emb (ix2 p d) = ix2 (rowOf t p) d := by
    funext a; apply Fin.ext
    match a with
    | ⟨0, _⟩ => show win0_1.index t (0 : Fin 2) * 128 + 1 * p.val = p.val + 128 * t.val; rw [e0]; omega
    | ⟨1, _⟩ => show win0_1.index t (1 : Fin 2) * 64 + 1 * d.val = d.val; rw [e1]; omega
  show iblk m c 1 t (ix2 p d) = _
  unfold iblk
  rw [View.read_apply, he]
  rfl

/-- Row p, negative k, lane d of block t sits at row p + 128 t of the array. -/
theorem he_w (t : Fin cfg0.N) (p : Fin 128) (k : Fin 100) (d : Fin 64) :
    ((cfg0.win 2).blk t).view.emb (ix3 p k d) = ix3 (rowOf t p) k d := by
  obtain ⟨e0, e1, e2⟩ := idx_facts_w t
  funext a; apply Fin.ext
  match a with
  | ⟨0, _⟩ => show win0_2.index t (0 : Fin 3) * 128 + 1 * p.val = p.val + 128 * t.val; rw [e0]; omega
  | ⟨1, _⟩ => show win0_2.index t (1 : Fin 3) * 100 + 1 * k.val = k.val; rw [e1]; omega
  | ⟨2, _⟩ => show win0_2.index t (2 : Fin 3) * 64 + 1 * d.val = d.val; rw [e2]; omega

/-- Reading block t of ANY contents of the negative-item array at (p, k, d) reads the contents at (p + 128 t, k, d). -/
theorem read_w (c : Dev nD) (t : Fin cfg0.N) (p : Fin 128) (k : Fin 100) (d : Fin 64)
    (X : Buf (Elt Ideal) ((c.tc : Thread nD τ).loc (Pipeline.arrRef spec0 2))) :
    ((cfg0.win 2).blk t).view.read (Elt Ideal) X (ix3 p k d) = X (ix3 (rowOf t p) k d) := by
  rw [View.read_apply, he_w t p k d]
  rfl

/-- The negative-item window's array is the third gathered array. -/
theorem V_arr2 (c : Dev nD) : V m c (Pipeline.arrRef spec0 2) = V m c main_v2 := rfl

theorem xw_apply (c : Dev nD) (t : Fin cfg0.N) (p : Fin 128) (k : Fin 100) (d : Fin 64) :
    xw m c t (ix3 p k d) = V m c main_v2 (ix3 (rowOf t p) k d) :=
  (read_w c t p k d (V m c (Pipeline.arrRef spec0 2))).trans (congrFun (V_arr2 m c) _)

end Cert.KernelIdeal.AccValue

end
-- ==== Proof.Spec.lean ====
/-
  One row of the collaborative-metric ranking loss, as a function on the extended reals.

  A row is a user vector u and a positive item v in R^64 and a hundred negative items w_k in R^64.
  Each vector is first clipped to the unit ball: with n = sqrt (sum_d x_d^2), the clipped vector is
  x / (n + eps) when n > 1 and x itself otherwise (the reference's form; the kernel multiplies x by
  the scalar 1 / (n + eps), or by 1, instead -- the same extended real because n + eps is not zero
  when n > 1: hat_scaled).  With dist(a, b) = sum_d (a_d - b_d)^2, the margin of negative k is
  m_k = 1 + dist(u^, v^) - dist(u^, w_k^); the row's term is
      log (100000 * c / 100 + 1) * sum_k max (m_k, 0),      c = #{k : m_k > 0}.
  The count c is the cardinality of a set of indices: a sum of ones over the violating negatives
  when it is accumulated in floating point (card_as_float_sum), and the value of a 32-bit word
  that counts them when it is accumulated in integers (card_as_word).
  The float literals stay as the words the two programs print; only 1.0 is read (it must be the
  multiplicative unit) and eps is known to be nonnegative.
-/
import Idealize.ShloMosaic.PureOps.Ideal
import Idealize.ShloMosaic.PureOps.Ideal.Laws
import Idealize.ShloMosaic.Lib.StableHlo.Predicate

noncomputable section

namespace Cml

open Idealize.ShloMosaic

/-- The word 1.0 denotes the extended real 1. -/
theorem one_word : Ideal.ofBits .f32 0x3F800000#32 = 1 := by
  simp [Ideal.ofBits, Ideal.ieee, -EReal.coe_mul]; norm_num

/-- The word the programs print for 1e-7 denotes a nonnegative real. -/
theorem eps_word_nonneg : 0 ≤ Ideal.ofBits .f32 0x33D6BF95#32 := by
  simp [Ideal.ofBits, Ideal.ieee, -EReal.coe_mul]

/-- Euclidean norm of a 64-vector. -/
def nrm (x : Fin 64 → EReal) : EReal := Ideal.sqrt (∑ d : Fin 64, x d * x d)

/-- The vector clipped to the unit ball: divided by (norm + eps) where the norm exceeds 1. -/
def hat (x : Fin 64 → EReal) (d : Fin 64) : EReal :=
  if Ideal.cmp .ogt (nrm x) (Ideal.ofBits .f32 0x3F800000#32) = 1#1
  then Ideal.div (x d) (nrm x + Ideal.ofBits .f32 0x33D6BF95#32) else x d

/-- Squared Euclidean distance of two 64-vectors. -/
def sqd (a b : Fin 64 → EReal) : EReal := ∑ d : Fin 64, (a d - b d) * (a d - b d)

/-- The margin of negative item k. -/
def metric (u v : Fin 64 → EReal) (w : Fin 100 → Fin 64 → EReal) (k : Fin 100) : EReal :=
  Ideal.ofBits .f32 0x3F800000#32 + sqd (hat u) (hat v) - sqd (hat u) (hat (w k))

/-- The number of negatives whose margin is violated, as an extended real. -/
def cnt (u v : Fin 64 → EReal) (w : Fin 100 → Fin 64 → EReal) : EReal :=
  (((Finset.univ.filter fun k : Fin 100 =>
      Ideal.cmp .ogt (metric u v w k) (Ideal.ofBits .f32 0x00000000#32) = 1#1).card : ℝ) : EReal)

/-- The row's term of the loss. -/
def rowTerm (u v : Fin 64 → EReal) (w : Fin 100 → Fin 64 → EReal) : EReal :=
  Ideal.log (Ideal.div (Ideal.ofBits .f32 0x47C35000#32 * cnt u v w) (Ideal.ofBits .f32 0x42C80000#32)
      + Ideal.ofBits .f32 0x3F800000#32)
    * ∑ k : Fin 100, max (metric u v w k) (Ideal.ofBits .f32 0x00000000#32)

/-- Multiplying by the reciprocal scale (or by 1) is dividing (or not): the two spellings of the clip. -/
theorem hat_scaled (x : Fin 64 → EReal) (d : Fin 64) :
    x d * (if Ideal.cmp .ogt (nrm x) (Ideal.ofBits .f32 0x3F800000#32) = 1#1
            then Ideal.div (Ideal.ofBits .f32 0x3F800000#32) (nrm x + Ideal.ofBits .f32 0x33D6BF95#32)
            else Ideal.ofBits .f32 0x3F800000#32) = hat x d := by
  unfold hat
  by_cases h : Ideal.cmp .ogt (nrm x) (Ideal.ofBits .f32 0x3F800000#32) = 1#1
  · rw [if_pos h, if_pos h]
    have hgt : (1 : EReal) < nrm x := by
      have h' := h
      rw [one_word] at h'
      simp only [Ideal.cmp] at h'
      exact of_decide_eq_true ((StableHlo.Predicate.ofBool_eq_one_iff _).mp h')
    have hpos : 0 < nrm x + Ideal.ofBits .f32 0x33D6BF95#32 :=
      add_pos_of_pos_of_nonneg (lt_trans zero_lt_one hgt) eps_word_nonneg
    rw [one_word]
    unfold Ideal.div
    rw [if_neg hpos.ne', if_neg hpos.ne', one_mul]
  · rw [if_neg h, if_neg h, one_word, mul_one]

/-- A sum of real numbers read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Counting in floating point: the sum over k of the bit b k, widened to a word and converted, is the number of set bits. -/
theorem card_as_float_sum (b : Fin 100 → BitVec 1) :
    ∑ k : Fin 100, ((((b k).setWidth 32).toInt : ℝ) : EReal)
      = (((Finset.univ.filter fun k : Fin 100 => b k = 1#1).card : ℝ) : EReal) := by
  rw [Finset.card_filter, Nat.cast_sum, coe_sum]
  refine Finset.sum_congr rfl fun k _ => ?_
  rcases BitVec.eq_zero_or_eq_one (b k) with h | h <;> rw [h] <;> simp

/-- Counting in integers: a 32-bit word whose value is a count of at most a hundred converts to that count. -/
theorem card_as_word (c : BitVec 32) (n : ℕ) (hn : n ≤ 100) (hc : c.toNat = n) :
    ((c.toInt : ℝ) : EReal) = ((n : ℝ) : EReal) := by
  rw [StableHlo.Predicate.toInt_eq_toNat_of_lt (by omega), hc]
  simp

end Cml

end
-- ==== Proof.KernelRow.lean ====
/-
  One row of a block, as the kernel computes it.  The body of the kernel takes a block of 128 user
  rows x0, 128 positive-item rows x1 and 128 x 100 negative-item rows x2 and computes, for every row
  p of the block, the row's term of the loss (a column of 128 values, before they are summed and added
  to the running total).  Read at row p this column is the row-level function Cml.rowTerm of row p of
  x0, row p of x1 and rows (p, k) of x2: every operation of the body is pointwise or a sum along the
  last axis, so the value at row p depends on row p only.
-/
import proofs.«409849_j21861383537472_3_alg».proof.Proof.Gen.KernelIdeal.Skeleton
import proofs.«409849_j21861383537472_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## Layout operations with a unit axis, read at an index given by coordinates -/

section Layout
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, b]` array cast to `[a, b, 1]` reads, at `(p, k, u)`, the operand at `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, c]` array cast to `[a, 1, c]` reads, at `(p, u, d)`, the operand at `(p, d)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(p, k, d)`, the operand at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (d : Fin c) :
    broadcastTo ⟨3, ![a, b, c]⟩ v h (ix3 p k d) = v (ix3 p k (0 : Fin 1)) := by
  refine broadcastTo_apply v h (ix3 p k d) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- An `[a, 1, c]` array broadcast to `[a, b, c]` reads, at `(p, k, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (d : Fin c) :
    broadcastTo ⟨3, ![a, b, c]⟩ v h (ix3 p k d) = v (ix3 p (0 : Fin 1) d) := by
  refine broadcastTo_apply v h (ix3 p k d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

end Layout

/-! ## Sums along the last axis, read at an index given by coordinates -/

/-- The lane sum of a `[128, 64]` block at row `p`. -/
theorem sum_lanes (v : FVec Ideal S128x64 .f32) (p : Fin 128) (hφ : FTy.f32 = FTy.f32 ∨ FTy.f32 = FTy.bf16)
    (hacc : @Eq (BitVec FTy.f32.bits) 0x00000000#32 0x00000000#32) :
    multiReduction .add [1] S128 v 0x00000000#32 reduces_S128x64_S128 hφ hacc (ix1 p) = ∑ d : Fin 64, v (ix2 p d) :=
  (Ideal.multiReduction_add_single v 0x00000000#32 reduces_S128x64_S128 hφ hacc (ix1 p)).trans
    (Finset.sum_congr rfl fun d _ => congrArg v (funext fun a => by match a with | ⟨0, _⟩ => rfl | ⟨1, _⟩ => rfl))

/-- The lane sum of a `[128, 100, 64]` block at `(p, k)`. -/
theorem sum_lanes3 (v : FVec Ideal S128x100x64 .f32) (p : Fin 128) (k : Fin 100)
    (hφ : FTy.f32 = FTy.f32 ∨ FTy.f32 = FTy.bf16) (hacc : @Eq (BitVec FTy.f32.bits) 0x00000000#32 0x00000000#32) :
    multiReduction .add [2] S128x100 v 0x00000000#32 reduces_S128x100x64_S128x100 hφ hacc (ix2 p k)
      = ∑ d : Fin 64, v (ix3 p k d) :=
  (Ideal.multiReduction_add_single v 0x00000000#32 reduces_S128x100x64_S128x100 hφ hacc (ix2 p k)).trans
    (Finset.sum_congr rfl fun d _ => congrArg v (funext fun a => by
      match a with | ⟨0, _⟩ => rfl | ⟨1, _⟩ => rfl | ⟨2, _⟩ => rfl))

/-- The sum over the hundred columns of a `[128, 100]` block at row `p`. -/
theorem sum_cols (v : FVec Ideal S128x100 .f32) (p : Fin 128) (hφ : FTy.f32 = FTy.f32 ∨ FTy.f32 = FTy.bf16)
    (hacc : @Eq (BitVec FTy.f32.bits) 0x00000000#32 0x00000000#32) :
    multiReduction .add [1] S128 v 0x00000000#32 reduces_S128x100_S128 hφ hacc (ix1 p) = ∑ k : Fin 100, v (ix2 p k) :=
  (Ideal.multiReduction_add_single v 0x00000000#32 reduces_S128x100_S128 hφ hacc (ix1 p)).trans
    (Finset.sum_congr rfl fun k _ => congrArg v (funext fun a => by match a with | ⟨0, _⟩ => rfl | ⟨1, _⟩ => rfl))

/-! ## Pointwise operations the library does not read at an index -/

/-- A square root at an index is the square root of the element. -/
theorem sqrt_apply {s : Shape} {φ : FTy} (a : FVec Ideal s φ) (i : s.Idx) : sqrt a i = Ideal.sqrt (a i) := rfl
/-- A logarithm at an index is the logarithm of the element. -/
theorem log_apply {s : Shape} {φ : FTy} (a : FVec Ideal s φ) (i : s.Idx) : log a i = Ideal.log (a i) := rfl
/-- A signed word converted to a float is its integer, exactly. -/
theorem sitofp_ideal {w : Nat} (b : BitVec w) : FloatOps.sitofp (F := Ideal) .f32 b = ((b.toInt : ℝ) : EReal) := rfl

/-- Push an index through the pointwise and the layout operations of the body. -/
local macro "push_index" : tactic =>
  `(tactic| simp only [mulf_apply, addf_apply, subf_apply, divf_apply, maximumf_apply, log_apply, sqrt_apply, select_apply,
      cmpf_apply, extui_apply, sitofp_apply, broadcast_apply, broadcastTo_a1_ab_apply, broadcastTo_ab1_abc_apply,
      broadcastTo_a1c_abc_apply, shapeCast_a_a1_apply, shapeCast_ab_ab1_apply, shapeCast_ac_a1c_apply,
      Ideal.cmpf_def, Ideal.ofBits_def, sitofp_ideal])

/-! ## The clipped user rows, and their difference with the clipped positive rows -/

/-- The clipped block of user rows at `(p, d)`. -/
theorem pay5_apply (x0 : FVec Ideal S128x64 .f32) (p : Fin 128) (d : Fin 64) :
    k0_pay5 (F := Ideal) x0 (ix2 p d) = Cml.hat (fun d => x0 (ix2 p d)) d := by
  unfold Gen.k0_pay5
  dsimp only
  rw [shapeCast_self]
  push_index
  rw [sum_lanes]
  exact Cml.hat_scaled (fun d => x0 (ix2 p d)) d

/-- The clipped user rows minus the clipped positive rows at `(p, d)`. -/
theorem pay6_apply (x0 x1 : FVec Ideal S128x64 .f32) (p : Fin 128) (d : Fin 64) :
    k0_pay6 (F := Ideal) x0 x1 (ix2 p d) = Cml.hat (fun d => x0 (ix2 p d)) d - Cml.hat (fun d => x1 (ix2 p d)) d := by
  unfold Gen.k0_pay6
  dsimp only
  rw [shapeCast_self, subf_apply, pay5_apply]
  push_index
  rw [sum_lanes]
  exact congrArg (fun t => Cml.hat (fun d => x0 (ix2 p d)) d - t) (Cml.hat_scaled (fun d => x1 (ix2 p d)) d)

/-! ## The row's term from the clipped rows -/

/-- The factor that clips a 64-vector to the unit ball: 1 / (norm + eps) where the norm exceeds 1, and 1 otherwise. -/
def scale (x : Fin 64 → EReal) : EReal :=
  if Ideal.cmp .ogt (Cml.nrm x) (Ideal.ofBits .f32 0x3F800000#32) = 1#1
  then Ideal.div (Ideal.ofBits .f32 0x3F800000#32) (Cml.nrm x + Ideal.ofBits .f32 0x33D6BF95#32)
  else Ideal.ofBits .f32 0x3F800000#32

/-- The margin of negative `k` at row `p`, from the clipped user rows `a`, the difference `b` of the clipped user and
    positive rows, and the raw negative rows `w`. -/
def margin (w : FVec Ideal S128x100x64 .f32) (a b : FVec Ideal S128x64 .f32) (p : Fin 128) (k : Fin 100) : EReal :=
  Ideal.ofBits .f32 0x3F800000#32 + (∑ d : Fin 64, b (ix2 p d) * b (ix2 p d))
    - ∑ d : Fin 64, (a (ix2 p d) - w (ix3 p k d) * scale (fun e => w (ix3 p k e)))
        * (a (ix2 p d) - w (ix3 p k d) * scale (fun e => w (ix3 p k e)))

/-- The margin block of the body at `(p, k)`, then what the body does with it. -/
local macro "margin_steps" : tactic =>
  `(tactic| (push_index; rw [sum_lanes, sum_lanes3]; push_index; rw [sum_lanes3]; (try push_index); rfl))

/-- The per-row column of the body at row `p`, over any three blocks. -/
theorem pay7_apply (w : FVec Ideal S128x100x64 .f32) (a b : FVec Ideal S128x64 .f32) (p : Fin 128) (u : Fin 1) :
    k0_pay7 (F := Ideal) w a b (ix2 p u)
      = Ideal.log (Ideal.div (Ideal.ofBits .f32 0x47C35000#32
            * ∑ k : Fin 100, (((((Ideal.cmp .ogt (margin w a b p k) (Ideal.ofBits .f32 0x00000000#32)).setWidth 32).toInt : ℝ)) : EReal))
          (Ideal.ofBits .f32 0x42C80000#32) + Ideal.ofBits .f32 0x3F800000#32)
        * ∑ k : Fin 100, max (margin w a b p k) (Ideal.ofBits .f32 0x00000000#32) := by
  unfold Gen.k0_pay7
  dsimp only
  push_index
  rw [sum_cols, sum_cols]
  refine congrArg₂ (fun s t => Ideal.log (Ideal.div (Ideal.ofBits .f32 0x47C35000#32 * s) (Ideal.ofBits .f32 0x42C80000#32)
      + Ideal.ofBits .f32 0x3F800000#32) * t) (Finset.sum_congr rfl fun k _ => ?_) (Finset.sum_congr rfl fun k _ => ?_)
  · margin_steps
  · margin_steps

/-- At the body's own three blocks the margin is the row-level margin. -/
theorem margin_eq (x0 x1 : FVec Ideal S128x64 .f32) (x2 : FVec Ideal S128x100x64 .f32) (p : Fin 128) (k : Fin 100) :
    margin (k0_pay4 (F := Ideal) x2) (k0_pay5 (F := Ideal) x0) (k0_pay6 (F := Ideal) x0 x1) p k
      = Cml.metric (fun d => x0 (ix2 p d)) (fun d => x1 (ix2 p d)) (fun k d => x2 (ix3 p k d)) k := by
  have hs : ∀ d : Fin 64, x2 (ix3 p k d) * scale (fun e => x2 (ix3 p k e)) = Cml.hat (fun e => x2 (ix3 p k e)) d :=
    fun d => Cml.hat_scaled (fun e => x2 (ix3 p k e)) d
  unfold margin Cml.metric Cml.sqd Gen.k0_pay4
  rw [shapeCast_self]
  simp only [pay5_apply, pay6_apply, hs]

/-- The per-row column of the body, at row p, is the row's term: over blocks typed as float vectors. -/
theorem row_term_fvec (x0 x1 : FVec Ideal S128x64 .f32) (x2 : FVec Ideal S128x100x64 .f32) (p : Fin 128) :
    k0_pay7 (F := Ideal) (k0_pay4 (F := Ideal) x2) (k0_pay5 (F := Ideal) x0) (k0_pay6 (F := Ideal) x0 x1) (ix2 p (0 : Fin 1))
      = Cml.rowTerm (fun d => x0 (ix2 p d)) (fun d => x1 (ix2 p d)) (fun k d => x2 (ix3 p k d)) := by
  have hc := Cml.card_as_float_sum (fun k => Ideal.cmp .ogt
    (Cml.metric (fun d => x0 (ix2 p d)) (fun d => x1 (ix2 p d)) (fun k d => x2 (ix3 p k d)) k) (Ideal.ofBits .f32 0x00000000#32))
  rw [pay7_apply]
  simp only [margin_eq]
  rw [hc]
  rfl

/-- The per-row column of the body, at row p, is the row's term. -/
theorem row_term (x0 x1 : Vec Ideal S128x64 .f32) (x2 : Vec Ideal S128x100x64 .f32) (p : Fin 128) :
    k0_pay7 (F := Ideal) (k0_pay4 (F := Ideal) x2) (k0_pay5 (F := Ideal) x0) (k0_pay6 (F := Ideal) x0 x1) (ix2 p (0 : Fin 1))
      = Cml.rowTerm (fun d => x0 (ix2 p d)) (fun d => x1 (ix2 p d)) (fun k d => x2 (ix3 p k d)) :=
  row_term_fvec x0 x1 x2 p

end Cert.KernelIdeal.RowValue

end
-- ==== Proof.KernelHost.lean ====
/-
  What the kernel's region finds in its three input arrays.  Before the region the program gathers
  rows of the two tables: an index below zero is first moved up by the table's 100000 rows, the row at
  the moved index is gathered, and a row whose moved index is outside 0 .. 99999 is replaced by a fill
  value.  Under the precondition every index is in -100000 .. 99999, so every moved index is in
  0 .. 99999, no row is replaced, and each array is the plain gather at the moved indices.
-/
import proofs.«409849_j21861383537472_3_alg».proof.Defs
import proofs.«409849_j21861383537472_3_alg».proof.Proof.Gen.KernelIdeal.Frame.Runs
import proofs.«409849_j21861383537472_3_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

noncomputable section

namespace Cert.KernelIdeal.HostValue

open Cert.KernelIdeal Cert.KernelIdeal.Gen Idealize.ShloMosaic Idealize.ShloMosaic.TcCoe Idealize.SL.Sem

/-- The moved indices of a vector of 16384 indices, as the gather's column of start indices. -/
def col1 (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 100000#32))) a)

/-- The moved indices of a 16384 x 100 array of indices, as the gather's start indices. -/
def col2 (a : IVec S16384x100 32) : IVec S16384x100x1 32 :=
  broadcastInDim S16384x100x1 ![0, 1] bcast_S16384x100_S16384x100x1_0_1
    (select (cmpi .slt a (broadcastInDim S16384x100 ![] bcast_S_S16384x100 (constantI S_ 32 0#32)))
      (addi a (broadcastInDim S16384x100 ![] bcast_S_S16384x100 (constantI S_ 32 100000#32))) a)

/-- The guard of a column of start indices: at each row, whether the index lies in 0 .. 99999. -/
def mask1 (k : IVec S16384x1 32) : IVec S16384 1 :=
  Host.reduce IntOp.andi
    (andi (cmpi .sge k (broadcastInDim S16384x1 ![] bcast_S_S16384x1 (constantI S_ 32 0#32)))
      (cmpi .sle k (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The guard of a 16384 x 100 x 1 array of start indices: at each place, whether the index lies in 0 .. 99999. -/
def mask2 (k : IVec S16384x100x1 32) : IVec S16384x100 1 :=
  Host.reduce IntOp.andi
    (andi (cmpi .sge k (broadcastInDim S16384x100x1 ![] bcast_S_S16384x100x1 (constantI S_ 32 0#32)))
      (cmpi .sle k (broadcastInDim S16384x100x1 ![0, 1, 2] bcast_S1x1x1_S16384x100x1_0_1_2
        (broadcastInDim S1x1x1 ![2] bcast_S1_S1x1x1_2 (constantI S1 32 99999#32)))))
    (constantI S_ 1 1#1) reducesTo_S16384x100x1_S16384x100_d2 h_S_

/-! ## Words -/

/-- An index word in -100000 .. 99999, as the two printed comparisons. -/
def InRange (a : BitVec 32) : Prop :=
  IntOp.cmpi .sge a 4294867296#32 = 1#1 ∧ IntOp.cmpi .slt a 100000#32 = 1#1

/-- A word in 0 .. 99999, as the two comparisons the gather's guard makes. -/
def Good (a : BitVec 32) : Prop :=
  IntOp.cmpi .sge a 0#32 = 1#1 ∧ IntOp.cmpi .sle a 99999#32 = 1#1

/-- A word in -100000 .. 99999, moved up by 100000 when it is negative, is in 0 .. 99999. -/
theorem moved_good (a : BitVec 32) (h : InRange a) :
    Good (Scalar.select (IntOp.cmpi .slt a 0#32) (IntOp.addi a 100000#32) a) := by
  obtain ⟨h1, h2⟩ := h
  unfold Good
  have e1 : (4294867296#32 : BitVec 32).toInt = -100000 := by decide
  have e2 : (100000#32 : BitVec 32).toInt = 100000 := by decide
  have e0 : (0#32 : BitVec 32).toInt = 0 := by decide
  have e9 : (99999#32 : BitVec 32).toInt = 99999 := by decide
  simp only [IntOp.cmpi, StableHlo.Predicate.ofBool_eq_one_iff, BitVec.sle, BitVec.slt, decide_eq_true_eq, e1, e2] at h1 h2
  by_cases hn : a.toInt < 0
  · have hc : IntOp.cmpi .slt a 0#32 = 1#1 := by
      simp only [IntOp.cmpi, StableHlo.Predicate.ofBool_eq_one_iff, BitVec.slt, decide_eq_true_eq, e0]; exact hn
    rw [hc, ValueIdx.select_one]
    have ht : (IntOp.addi a 100000#32).toInt = a.toInt + 100000 := by
      show (a + 100000#32).toInt = _
      rw [BitVec.toInt_add, e2]
      exact Int.bmod_eq_of_le_mul_two (by omega) (by omega)
    simp only [IntOp.cmpi, StableHlo.Predicate.ofBool_eq_one_iff, BitVec.sle, BitVec.slt, decide_eq_true_eq, e0, e9, ht]
    omega
  · have hc : IntOp.cmpi .slt a 0#32 = 0#1 := by
      simp only [IntOp.cmpi, BitVec.slt, e0, decide_eq_false hn]; rfl
    rw [hc, ValueIdx.select_zero]
    simp only [IntOp.cmpi, StableHlo.Predicate.ofBool_eq_one_iff, BitVec.sle, BitVec.slt, decide_eq_true_eq, e0, e9]
    omega

/-- A fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-! ## The guards -/

/-- Every moved index of the column is in 0 .. 99999 when every index is in -100000 .. 99999. -/
theorem col1_good (a : IVec S16384 32) (ha : ∀ i, InRange (a i)) (j : S16384x1.Idx) : Good (col1 a j) :=
  moved_good (a _) (ha _)

theorem col2_good (a : IVec S16384x100 32) (ha : ∀ i, InRange (a i)) (j : S16384x100x1.Idx) : Good (col2 a j) :=
  moved_good (a _) (ha _)

/-- The guard of a column of indices all in 0 .. 99999 is 1 at every row. -/
theorem mask1_ones (k : IVec S16384x1 32) (hk : ∀ j, Good (k j)) (i : S16384.Idx) : mask1 k i = 1#1 := by
  unfold mask1
  rw [Host.reduce_eq_foldl]
  exact foldl_andi_ones _ (fun j => show IntOp.andi (IntOp.cmpi .sge (k j) 0#32) (IntOp.cmpi .sle (k j) 99999#32) = 1#1 from
    IntOp.andi_eq_one.2 (hk j)) _

theorem mask2_ones (k : IVec S16384x100x1 32) (hk : ∀ j, Good (k j)) (i : S16384x100.Idx) : mask2 k i = 1#1 := by
  unfold mask2
  rw [Host.reduce_eq_foldl]
  exact foldl_andi_ones _ (fun j => show IntOp.andi (IntOp.cmpi .sge (k j) 0#32) (IntOp.cmpi .sle (k j) 99999#32) = 1#1 from
    IntOp.andi_eq_one.2 (hk j)) _

/-! ## The precondition read back -/

variable (m : (ℓ : Loc nD τ sig) → Buf (Elt Ideal) ℓ)

instance : Subsingleton S_.Idx := ⟨fun a b => funext fun d => d.elim0⟩

/-- Under the precondition every index of the three index arrays is in -100000 .. 99999. -/
theorem idx_range (c : Dev nD) (hpre : Cert.Pre_KernelIdeal m) :
    (∀ i, InRange ((m ((c.tc : Thread nD τ).loc main_arg2) : IVec S16384 32) i))
    ∧ (∀ i, InRange ((m ((c.tc : Thread nD τ).loc main_arg3) : IVec S16384 32) i))
    ∧ (∀ i, InRange ((m ((c.tc : Thread nD τ).loc main_arg4) : IVec S16384x100 32) i)) := by
  have h := congrFun (hpre c) ValueIdx.ix0
  dsimp only [Cert.Pre_finite_inputs.fn, Cert.Pre_finite_inputs.fn_part1] at h
  obtain ⟨h22, h28⟩ := IntOp.andi_eq_one.1 h
  obtain ⟨h15, h21⟩ := IntOp.andi_eq_one.1 h22
  obtain ⟨_, h14⟩ := IntOp.andi_eq_one.1 h15
  refine ⟨fun i => ?_, fun i => ?_, fun i => ?_⟩
  · exact IntOp.andi_eq_one.1 (Host.reduce_andi_all _ _ _ _ _ h14 i)
  · exact IntOp.andi_eq_one.1 (Host.reduce_andi_all _ _ _ _ _ h21 i)
  · exact IntOp.andi_eq_one.1 (Host.reduce_andi_all _ _ _ _ _ h28 i)

/-! ## The arrays as the operations leave them

Each array is written by the last of its gather's 23 operations; reading every operation's result at its own
buffer, and every other buffer as it was, leaves the guarded gather over the launch contents of the table and of
the index array. -/

set_option maxRecDepth 16384 in
set_option maxHeartbeats 4000000 in
/-- What the host operations leave in the array, before the precondition is used: the gather, guarded row by row. -/
theorem V_u_term (c : Dev nD) :
    (V m c main_v0 : S16384x64.Idx → EReal)
      = select (broadcastInDim S16384x64 ![0] bcast_S16384_S16384x64_0 (mask1 (col1 (m ((c.tc : Thread nD τ).loc main_arg2)))))
          (Host.gather gather_S100000x64_S16384x1_S16384x64_1_0_n_n_0_1_164 (m ((c.tc : Thread nD τ).loc main_arg0))
            (col1 (m ((c.tc : Thread nD τ).loc main_arg2))))
          (broadcastInDim S16384x64 ![] bcast_S_S16384x64 (constant (F := Ideal) S_ .f32 0x7FC00000#32)) := by
  dsimp only [V, V0]
  simp only [hostOps0, hostOps0_1, hostOps0_2, List.flatten_cons, List.flatten_nil, List.append_nil, List.cons_append, List.nil_append]
  simp (disch := decide) only [StableHlo.after_cons, StableHlo.after_nil, StableHlo.nullary_result', StableHlo.unary_result',
    StableHlo.binary_result', StableHlo.ternary_result', StableHlo.nullary_result_ne', StableHlo.unary_result_ne',
    StableHlo.binary_result_ne', StableHlo.ternary_result_ne', StableHlo.TRef.ofBuf, StableHlo.TRef.toBuf, cast_eq]
  rfl

set_option maxRecDepth 16384 in
set_option maxHeartbeats 4000000 in
/-- What the host operations leave in the array, before the precondition is used: the gather, guarded row by row. -/
theorem V_v_term (c : Dev nD) :
    (V m c main_v1 : S16384x64.Idx → EReal)
      = select (broadcastInDim S16384x64 ![0] bcast_S16384_S16384x64_0 (mask1 (col1 (m ((c.tc : Thread nD τ).loc main_arg3)))))
          (Host.gather gather_S100000x64_S16384x1_S16384x64_1_0_n_n_0_1_164 (m ((c.tc : Thread nD τ).loc main_arg1))
            (col1 (m ((c.tc : Thread nD τ).loc main_arg3))))
          (broadcastInDim S16384x64 ![] bcast_S_S16384x64 (constant (F := Ideal) S_ .f32 0x7FC00000#32)) := by
  dsimp only [V, V0]
  simp only [hostOps0, hostOps0_1, hostOps0_2, List.flatten_cons, List.flatten_nil, List.append_nil, List.cons_append, List.nil_append]
  simp (disch := decide) only [StableHlo.after_cons, StableHlo.after_nil, StableHlo.nullary_result', StableHlo.unary_result',
    StableHlo.binary_result', StableHlo.ternary_result', StableHlo.nullary_result_ne', StableHlo.unary_result_ne',
    StableHlo.binary_result_ne', StableHlo.ternary_result_ne', StableHlo.TRef.ofBuf, StableHlo.TRef.toBuf, cast_eq]
  rfl

set_option maxRecDepth 16384 in
set_option maxHeartbeats 4000000 in
/-- What the host operations leave in the array, before the precondition is used: the gather, guarded row by row. -/
theorem V_w_term (c : Dev nD) :
    (V m c main_v2 : S16384x100x64.Idx → EReal)
      = select (broadcastInDim S16384x100x64 ![0, 1] bcast_S16384x100_S16384x100x64_0_1 (mask2 (col2 (m ((c.tc : Thread nD τ).loc main_arg4)))))
          (Host.gather gather_S100000x64_S16384x100x1_S16384x100x64_2_0_n_n_0_2_164 (m ((c.tc : Thread nD τ).loc main_arg1))
            (col2 (m ((c.tc : Thread nD τ).loc main_arg4))))
          (broadcastInDim S16384x100x64 ![] bcast_S_S16384x100x64 (constant (F := Ideal) S_ .f32 0x7FC00000#32)) := by
  dsimp only [V, V0]
  simp only [hostOps0, hostOps0_1, hostOps0_2, List.flatten_cons, List.flatten_nil, List.append_nil, List.cons_append, List.nil_append]
  simp (disch := decide) only [StableHlo.after_cons, StableHlo.after_nil, StableHlo.nullary_result', StableHlo.unary_result',
    StableHlo.binary_result', StableHlo.ternary_result', StableHlo.nullary_result_ne', StableHlo.unary_result_ne',
    StableHlo.binary_result_ne', StableHlo.ternary_result_ne', StableHlo.TRef.ofBuf, StableHlo.TRef.toBuf, cast_eq]
  rfl

/-! ## The arrays under the precondition -/

/-- The user rows the region finds: the gather of the user table at the moved user indices. -/
theorem V_u (c : Dev nD) (hpre : Cert.Pre_KernelIdeal m) :
    (V m c main_v0 : S16384x64.Idx → EReal)
      = Host.gather gather_S100000x64_S16384x1_S16384x64_1_0_n_n_0_1_164 (m ((c.tc : Thread nD τ).loc main_arg0))
          (col1 (m ((c.tc : Thread nD τ).loc main_arg2))) := by
  rw [V_u_term]
  funext i
  rw [ValueIdx.select_apply]
  have hm : broadcastInDim S16384x64 ![0] bcast_S16384_S16384x64_0
      (mask1 (col1 (m ((c.tc : Thread nD τ).loc main_arg2)))) i = 1#1 :=
    mask1_ones _ (col1_good _ (idx_range m c hpre).1) _
  rw [hm, ValueIdx.select_one]

/-- The positive-item rows: the gather of the item table at the moved positive indices. -/
theorem V_v (c : Dev nD) (hpre : Cert.Pre_KernelIdeal m) :
    (V m c main_v1 : S16384x64.Idx → EReal)
      = Host.gather gather_S100000x64_S16384x1_S16384x64_1_0_n_n_0_1_164 (m ((c.tc : Thread nD τ).loc main_arg1))
          (col1 (m ((c.tc : Thread nD τ).loc main_arg3))) := by
  rw [V_v_term]
  funext i
  rw [ValueIdx.select_apply]
  have hm : broadcastInDim S16384x64 ![0] bcast_S16384_S16384x64_0
      (mask1 (col1 (m ((c.tc : Thread nD τ).loc main_arg3)))) i = 1#1 :=
    mask1_ones _ (col1_good _ (idx_range m c hpre).2.1) _
  rw [hm, ValueIdx.select_one]

/-- The negative-item rows: the gather of the item table at the moved negative indices. -/
theorem V_w (c : Dev nD) (hpre : Cert.Pre_KernelIdeal m) :
    (V m c main_v2 : S16384x100x64.Idx → EReal)
      = Host.gather gather_S100000x64_S16384x100x1_S16384x100x64_2_0_n_n_0_2_164 (m ((c.tc : Thread nD τ).loc main_arg1))
          (col2 (m ((c.tc : Thread nD τ).loc main_arg4))) := by
  rw [V_w_term]
  funext i
  rw [ValueIdx.select_apply]
  have hm : broadcastInDim S16384x100x64 ![0, 1] bcast_S16384x100_S16384x100x64_0_1
      (mask2 (col2 (m ((c.tc : Thread nD τ).loc main_arg4)))) i = 1#1 :=
    mask2_ones _ (col2_good _ (idx_range m c hpre).2.2) _
  rw [hm, ValueIdx.select_one]

end Cert.KernelIdeal.HostValue

end
-- ==== Proof.RefRow.lean ====
/-
  One row of the batch, as the reference computes it.  The reference gathers the user rows, the
  positive-item rows and the negative-item rows for the whole batch of 16384 and computes the column of
  the 16384 rows' terms before summing it.  Read at row r this column is the row-level function
  Cml.rowTerm of row r of the gathered user array, row r of the gathered positive array and rows
  (r, k) of the gathered negative array: every operation after the gathers is pointwise or a sum along
  the last axis.  The three gathers are never opened here.
-/
import proofs.«409849_j21861383537472_3_alg».proof.Proof.Gen.ReferenceIdeal.Read
import proofs.«409849_j21861383537472_3_alg».proof.Proof.Spec
import Idealize.ShloMosaic.Lib.ValueIdx
import Idealize.ShloMosaic.Lib.StableHlo.Predicate
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx

section
variable (x0 x1 : (⟨S100000x64, .f32⟩ : BufTy).Contents (Elt Ideal)) (x2 x3 : (⟨S16384, .i32⟩ : BufTy).Contents (Elt Ideal))
  (x4 : (⟨S16384x100, .i32⟩ : BufTy).Contents (Elt Ideal))

/-- The norm column of the gathered user array, at row r, is the norm of row r. -/
theorem nrm_u (r : Fin 16384) (c : Fin 1) :
    val_main_v7 (F := Ideal) x0 x2 (ix2 r c) = Cml.nrm (fun d => val_main_v6 (F := Ideal) x0 x2 (ix2 r d)) := by
  rw [val_main_v7_apply, val_main_call0_v2_apply, val_main_call0_v1_apply]
  rw [show (val_main_call0_cst (F := Ideal)) (Shape.Idx.first h_S_) = 0 from Ideal.ofBits_zero_f32, zero_add]
  unfold Cml.nrm
  refine congrArg Ideal.sqrt (Finset.sum_congr rfl fun d _ => ?_)
  rw [val_main_call0_v0_apply]
  have e : idx_main_call0_v1 (idx_main_call0_v2 (ix2 r c)) d = ix2 r d := by
    funext a; match a with | ⟨0, _⟩ => rfl | ⟨1, _⟩ => rfl
  rw [e]; rfl

/-- The clipped user array at (r, d) is the clipped row r at d. -/
theorem hat_u (r : Fin 16384) (d : Fin 64) :
    val_main_v14 (F := Ideal) x0 x2 (ix2 r d) = Cml.hat (fun d => val_main_v6 (F := Ideal) x0 x2 (ix2 r d)) d := by
  have e1 : idx_main_call1_v0 (ix2 r d) = ix2 r (0 : Fin 1) := by
    funext a; match a with | ⟨0, _⟩ => rfl | ⟨1, _⟩ => rfl
  have e2 : idx_main_v12 (ix2 r d) = ix2 r (0 : Fin 1) := by
    funext a; match a with | ⟨0, _⟩ => rfl | ⟨1, _⟩ => rfl
  rw [val_main_v14_apply, val_main_call1_v0_apply, val_main_v9_apply, val_main_v13_apply, val_main_v12_apply,
    val_main_v11_apply, e1, e2, nrm_u, val_main_v8_apply, val_main_cst_apply, val_main_v10_apply, val_main_cst_1_apply]
  rfl

/-- The norm column of the gathered positive array, at row r, is the norm of row r. -/
theorem nrm_v (r : Fin 16384) (c : Fin 1) :
    val_main_v22 (F := Ideal) x1 x3 (ix2 r c) = Cml.nrm (fun d => val_main_v21 (F := Ideal) x1 x3 (ix2 r d)) := by
  rw [val_main_v22_apply, val_main_call2_v2_apply, val_main_call2_v1_apply]
  rw [show (val_main_call2_cst (F := Ideal)) (Shape.Idx.first h_S_) = 0 from Ideal.ofBits_zero_f32, zero_add]
  unfold Cml.nrm
  refine congrArg Ideal.sqrt (Finset.sum_congr rfl fun d _ => ?_)
  rw [val_main_call2_v0_apply]
  have e : idx_main_call2_v1 (idx_main_call2_v2 (ix2 r c)) d = ix2 r d := by
    funext a; match a with | ⟨0, _⟩ => rfl | ⟨1, _⟩ => rfl
  rw [e]; rfl

/-- The clipped positive array at (r, d) is the clipped row r at d. -/
theorem hat_v (r : Fin 16384) (d : Fin 64) :
    val_main_v29 (F := Ideal) x1 x3 (ix2 r d) = Cml.hat (fun d => val_main_v21 (F := Ideal) x1 x3 (ix2 r d)) d := by
  have e1 : idx_main_call3_v0 (ix2 r d) = ix2 r (0 : Fin 1) := by
    funext a; match a with | ⟨0, _⟩ => rfl | ⟨1, _⟩ => rfl
  have e2 : idx_main_v27 (ix2 r d) = ix2 r (0 : Fin 1) := by
    funext a; match a with | ⟨0, _⟩ => rfl | ⟨1, _⟩ => rfl
  rw [val_main_v29_apply, val_main_call3_v0_apply, val_main_v24_apply, val_main_v28_apply, val_main_v27_apply,
    val_main_v26_apply, e1, e2, nrm_v, val_main_v23_apply, val_main_cst_4_apply, val_main_v25_apply, val_main_cst_5_apply]
  rfl

/-- The norm column of the gathered negative array, at (r, k), is the norm of row (r, k). -/
theorem nrm_w (r : Fin 16384) (k : Fin 100) (c : Fin 1) :
    val_main_v37 (F := Ideal) x1 x4 (ix3 r k c) = Cml.nrm (fun d => val_main_v36 (F := Ideal) x1 x4 (ix3 r k d)) := by
  rw [val_main_v37_apply, val_main_call4_v2_apply, val_main_call4_v1_apply]
  rw [show (val_main_call4_cst (F := Ideal)) (Shape.Idx.first h_S_) = 0 from Ideal.ofBits_zero_f32, zero_add]
  unfold Cml.nrm
  refine congrArg Ideal.sqrt (Finset.sum_congr rfl fun d _ => ?_)
  rw [val_main_call4_v0_apply]
  have e : idx_main_call4_v1 (idx_main_call4_v2 (ix3 r k c)) d = ix3 r k d := by
    funext a; match a with | ⟨0, _⟩ => rfl | ⟨1, _⟩ => rfl | ⟨2, _⟩ => rfl
  rw [e]; rfl

/-- The clipped negative array at (r, k, d) is the clipped row (r, k) at d. -/
theorem hat_w (r : Fin 16384) (k : Fin 100) (d : Fin 64) :
    val_main_v44 (F := Ideal) x1 x4 (ix3 r k d) = Cml.hat (fun d => val_main_v36 (F := Ideal) x1 x4 (ix3 r k d)) d := by
  have e1 : idx_main_call5_v0 (ix3 r k d) = ix3 r k (0 : Fin 1) := by
    funext a; match a with | ⟨0, _⟩ => rfl | ⟨1, _⟩ => rfl | ⟨2, _⟩ => rfl
  have e2 : idx_main_v42 (ix3 r k d) = ix3 r k (0 : Fin 1) := by
    funext a; match a with | ⟨0, _⟩ => rfl | ⟨1, _⟩ => rfl | ⟨2, _⟩ => rfl
  rw [val_main_v44_apply, val_main_call5_v0_apply, val_main_v39_apply, val_main_v43_apply, val_main_v42_apply,
    val_main_v41_apply, e1, e2, nrm_w, val_main_v38_apply, val_main_cst_8_apply, val_main_v40_apply, val_main_cst_9_apply]
  rfl

/-- The squared distance of the clipped user and positive rows. -/
theorem sqd_uv (r : Fin 16384) :
    val_main_v47 (F := Ideal) x0 x1 x2 x3 (ix1 r)
      = Cml.sqd (Cml.hat fun d => val_main_v6 (F := Ideal) x0 x2 (ix2 r d)) (Cml.hat fun d => val_main_v21 (F := Ideal) x1 x3 (ix2 r d)) := by
  rw [val_main_v47_apply]
  rw [show (val_main_cst_10 (F := Ideal)) (Shape.Idx.first h_S_) = 0 from Ideal.ofBits_zero_f32, zero_add]
  unfold Cml.sqd
  refine Finset.sum_congr rfl fun d _ => ?_
  have e : idx_main_v47 (ix1 r) d = ix2 r d := by
    funext a; match a with | ⟨0, _⟩ => rfl | ⟨1, _⟩ => rfl
  rw [e, val_main_v46_apply, val_main_v45_apply, hat_u, hat_v]
  rfl

/-- The squared distance of the clipped user row and the clipped negative row k. -/
theorem sqd_uw (r : Fin 16384) (k : Fin 100) :
    val_main_v53 (F := Ideal) x0 x1 x2 x4 (ix2 r k)
      = Cml.sqd (Cml.hat fun d => val_main_v6 (F := Ideal) x0 x2 (ix2 r d)) (Cml.hat fun d => val_main_v36 (F := Ideal) x1 x4 (ix3 r k d)) := by
  rw [val_main_v53_apply]
  rw [show (val_main_cst_11 (F := Ideal)) (Shape.Idx.first h_S_) = 0 from Ideal.ofBits_zero_f32, zero_add]
  unfold Cml.sqd
  refine Finset.sum_congr rfl fun d _ => ?_
  have e : idx_main_v53 (ix2 r k) d = ix3 r k d := by
    funext a; match a with | ⟨0, _⟩ => rfl | ⟨1, _⟩ => rfl | ⟨2, _⟩ => rfl
  have e' : idx_main_v49 (idx_main_v50 (ix3 r k d)) = ix2 r d := by
    funext a; match a with | ⟨0, _⟩ => rfl | ⟨1, _⟩ => rfl
  rw [e, val_main_v52_apply, val_main_v51_apply, val_main_v50_apply, val_main_v49_apply, e', hat_u, hat_w]
  rfl

/-- The margin of negative k in row r. -/
theorem metric_at (r : Fin 16384) (k : Fin 100) :
    val_main_v57 (F := Ideal) x0 x1 x2 x3 x4 (ix2 r k)
      = Cml.metric (fun d => val_main_v6 (F := Ideal) x0 x2 (ix2 r d)) (fun d => val_main_v21 (F := Ideal) x1 x3 (ix2 r d))
          (fun k d => val_main_v36 (F := Ideal) x1 x4 (ix3 r k d)) k := by
  have e : idx_main_v48 (idx_main_v56 (ix2 r k)) = ix1 r := by
    funext a; match a with | ⟨0, _⟩ => rfl
  rw [val_main_v57_apply, val_main_v56_apply, val_main_v55_apply, val_main_v54_apply, val_main_cst_12_apply, val_main_v48_apply, e,
    sqd_uv, sqd_uw]
  rfl

/-- The sum of the positive parts of the margins of row r. -/
theorem pos_sum (r : Fin 16384) :
    val_main_v60 (F := Ideal) x0 x1 x2 x3 x4 (ix1 r)
      = ∑ k : Fin 100, max (Cml.metric (fun d => val_main_v6 (F := Ideal) x0 x2 (ix2 r d)) (fun d => val_main_v21 (F := Ideal) x1 x3 (ix2 r d))
          (fun k d => val_main_v36 (F := Ideal) x1 x4 (ix3 r k d)) k) (Ideal.ofBits .f32 0x00000000#32) := by
  rw [val_main_v60_apply]
  rw [show (val_main_cst_14 (F := Ideal)) (Shape.Idx.first h_S_) = 0 from Ideal.ofBits_zero_f32, zero_add]
  refine Finset.sum_congr rfl fun k _ => ?_
  have e : idx_main_v60 (ix1 r) k = ix2 r k := by
    funext a; match a with | ⟨0, _⟩ => rfl | ⟨1, _⟩ => rfl
  rw [e, val_main_v59_apply, metric_at, val_main_v58_apply, val_main_cst_13_apply]
  rfl

/-- The violation bit of negative k in row r. -/
theorem mask_at (r : Fin 16384) (k : Fin 100) :
    val_main_v62 (F := Ideal) x0 x1 x2 x3 x4 (ix2 r k)
      = Ideal.cmp .ogt (Cml.metric (fun d => val_main_v6 (F := Ideal) x0 x2 (ix2 r d)) (fun d => val_main_v21 (F := Ideal) x1 x3 (ix2 r d))
          (fun k d => val_main_v36 (F := Ideal) x1 x4 (ix3 r k d)) k) (Ideal.ofBits .f32 0x00000000#32) := by
  rw [val_main_v62_apply, metric_at, val_main_v61_apply, val_main_cst_15_apply]
  rfl

/-- The converted integer count of row r is the number of violated margins. -/
theorem cnt_at (r : Fin 16384) :
    val_main_v65 (F := Ideal) x0 x1 x2 x3 x4 (ix1 r)
      = Cml.cnt (fun d => val_main_v6 (F := Ideal) x0 x2 (ix2 r d)) (fun d => val_main_v21 (F := Ideal) x1 x3 (ix2 r d))
          (fun k d => val_main_v36 (F := Ideal) x1 x4 (ix3 r k d)) := by
  have hc : (val_main_v64 (F := Ideal) x0 x1 x2 x3 x4 (ix1 r)).toNat
      = (Finset.univ.filter fun q : Fin 100 => val_main_v62 (F := Ideal) x0 x1 x2 x3 x4 (StableHlo.Predicate.ij r q) = 1#1).card := by
    unfold val_main_v64 val_main_v63 val_main_c_16
    exact StableHlo.Predicate.toNat_reduce_count_cols (by norm_num) _ natLt_1_32 reducesTo_S16384x100_S16384_d1 h_S_ (ix1 r)
  have hset : (Finset.univ.filter fun q : Fin 100 => val_main_v62 (F := Ideal) x0 x1 x2 x3 x4 (StableHlo.Predicate.ij r q) = 1#1)
      = Finset.univ.filter fun k : Fin 100 =>
          Ideal.cmp .ogt (Cml.metric (fun d => val_main_v6 (F := Ideal) x0 x2 (ix2 r d)) (fun d => val_main_v21 (F := Ideal) x1 x3 (ix2 r d))
            (fun k d => val_main_v36 (F := Ideal) x1 x4 (ix3 r k d)) k) (Ideal.ofBits .f32 0x00000000#32) = 1#1 := by
    refine Finset.filter_congr fun q _ => ?_
    have e : (StableHlo.Predicate.ij r q : S16384x100.Idx) = ix2 r q := by
      funext a; match a with | ⟨0, _⟩ => rfl | ⟨1, _⟩ => rfl
    rw [e, mask_at]
  rw [hset] at hc
  rw [val_main_v65_apply]
  unfold Cml.cnt
  exact Cml.card_as_word _ _ ((Finset.card_le_univ _).trans (by simp)) hc

end

/-- The column of row terms, at row r, is the row's term of the three gathered arrays' rows. -/
theorem row_term (x0 x1 : (⟨S100000x64, .f32⟩ : BufTy).Contents (Elt Ideal)) (x2 x3 : (⟨S16384, .i32⟩ : BufTy).Contents (Elt Ideal))
    (x4 : (⟨S16384x100, .i32⟩ : BufTy).Contents (Elt Ideal)) (r : Fin 16384) :
    val_main_v73 (F := Ideal) x0 x1 x2 x3 x4 (ix1 r)
      = Cml.rowTerm (fun d => val_main_v6 (F := Ideal) x0 x2 (ix2 r d)) (fun d => val_main_v21 (F := Ideal) x1 x3 (ix2 r d))
          (fun k d => val_main_v36 (F := Ideal) x1 x4 (ix3 r k d)) := by
  rw [val_main_v73_apply, val_main_v72_apply, val_main_v71_apply, val_main_v69_apply, val_main_v67_apply, val_main_v66_apply,
    val_main_cst_17_apply, val_main_v68_apply, val_main_cst_18_apply, val_main_v70_apply, val_main_cst_19_apply, cnt_at, pos_sum]
  rfl

end Cert.ReferenceIdeal.RowValue

end
-- ==== Proof.Bridge.lean ====
/-
  The two sums are one sum.  The kernel's result is the sum over the 128 grid points of the points'
  block sums; a block sum is the sum over the block's 128 rows of the row terms of the rows of the
  three gathered arrays (under the precondition the arrays the region finds are the plain gathers),
  and row p of block t is batch row p + 128 t.  The reference's result is the sum over the 16384 batch
  rows of the same row terms of the same gathered arrays.  Regrouping 16384 = 128 * 128 rows by
  blocks joins the two; addition on the extended reals is commutative and associative, so no
  finiteness is needed.
-/
import proofs.«409849_j21861383537472_3_alg».proof.Defs
import proofs.«409849_j21861383537472_3_alg».proof.Proof.KernelRun
import proofs.«409849_j21861383537472_3_alg».proof.Proof.KernelBlocks
import proofs.«409849_j21861383537472_3_alg».proof.Proof.KernelRow
import proofs.«409849_j21861383537472_3_alg».proof.Proof.KernelHost
import proofs.«409849_j21861383537472_3_alg».proof.Proof.RefRow
import proofs.«409849_j21861383537472_3_alg».proof.Proof.Sums

set_option maxRecDepth 16384

noncomputable section

namespace Cert.Proof.Bridge

open Idealize.ShloMosaic Idealize.ShloMosaic.TcCoe Idealize.SL.Sem Idealize.ShloMosaic.ValueIdx

/-- The row term of batch row r of three gathered arrays. -/
def rowF (U V : (⟨2, ![16384, 64]⟩ : Shape).Idx → EReal) (W : (⟨3, ![16384, 100, 64]⟩ : Shape).Idx → EReal) (r : Fin 16384) : EReal :=
  Cml.rowTerm (fun d => U (ix2 r d)) (fun d => V (ix2 r d)) (fun k d => W (ix3 r k d))

section Kernel

open Cert.KernelIdeal Cert.KernelIdeal.Gen Cert.KernelIdeal.AccValue Cert.KernelIdeal.HostValue

variable (m : (ℓ : Loc Cert.KernelIdeal.nD Cert.KernelIdeal.τ Cert.KernelIdeal.sig) → Buf (Elt Ideal) ℓ)

/-- The three gathered arrays of the kernel's program. -/
def UK (c : Dev Cert.KernelIdeal.nD) : (⟨2, ![16384, 64]⟩ : Shape).Idx → EReal :=
  Host.gather gather_S100000x64_S16384x1_S16384x64_1_0_n_n_0_1_164 (m ((c.tc : Thread nD τ).loc main_arg0)) (col1 (m ((c.tc : Thread nD τ).loc main_arg2)))
def VK (c : Dev Cert.KernelIdeal.nD) : (⟨2, ![16384, 64]⟩ : Shape).Idx → EReal :=
  Host.gather gather_S100000x64_S16384x1_S16384x64_1_0_n_n_0_1_164 (m ((c.tc : Thread nD τ).loc main_arg1)) (col1 (m ((c.tc : Thread nD τ).loc main_arg3)))
def WK (c : Dev Cert.KernelIdeal.nD) : (⟨3, ![16384, 100, 64]⟩ : Shape).Idx → EReal :=
  Host.gather gather_S100000x64_S16384x100x1_S16384x100x64_2_0_n_n_0_2_164 (m ((c.tc : Thread nD τ).loc main_arg1)) (col2 (m ((c.tc : Thread nD τ).loc main_arg4)))

/-- A block sum is the sum of the row terms of the block's rows. -/
theorem blockSumN_eq (hpre : Cert.Pre_KernelIdeal m) (c : Dev nD) (s : ℕ) (h : s < 128) :
    blockSumN m c s = ∑ p : Fin 128, rowF (UK m c) (VK m c) (WK m c) (finProdFinEquiv ((⟨s, h⟩ : Fin 128), p)) := by
  have h' : s < cfg0.N := lt_of_lt_of_eq h (show cfg0.N = 128 from N_0).symm
  rw [blockSumN_of_lt m c s h']
  unfold blockSum
  refine Finset.sum_congr rfl fun p _ => ?_
  refine (Cert.KernelIdeal.RowValue.row_term (xu m c ⟨s, h'⟩) (xv m c ⟨s, h'⟩) (xw m c ⟨s, h'⟩) p).trans ?_
  have hr : rowOf ⟨s, h'⟩ p = finProdFinEquiv ((⟨s, h⟩ : Fin 128), p) := Fin.ext rfl
  have hu : (fun d => xu m c ⟨s, h'⟩ (ix2 p d)) = fun d => UK m c (ix2 (finProdFinEquiv ((⟨s, h⟩ : Fin 128), p)) d) :=
    funext fun d => by rw [xu_apply, V_u m c hpre, hr]; rfl
  have hv : (fun d => xv m c ⟨s, h'⟩ (ix2 p d)) = fun d => VK m c (ix2 (finProdFinEquiv ((⟨s, h⟩ : Fin 128), p)) d) :=
    funext fun d => by rw [xv_apply, V_v m c hpre, hr]; rfl
  have hw : (fun k d => xw m c ⟨s, h'⟩ (ix3 p k d)) = fun k d => WK m c (ix3 (finProdFinEquiv ((⟨s, h⟩ : Fin 128), p)) k d) :=
    funext fun k => funext fun d => by rw [xw_apply, V_w m c hpre, hr]; rfl
  rw [hu, hv, hw]
  rfl

/-- The kernel's result: the sum over the batch of the row terms. -/
theorem kernel_total (hpre : Cert.Pre_KernelIdeal m) (c : Dev nD) :
    ∑ s ∈ Finset.range 128, blockSumN m c s = ∑ r : Fin 16384, rowF (UK m c) (VK m c) (WK m c) r := by
  have e : (∑ r : Fin 16384, rowF (UK m c) (VK m c) (WK m c) r)
      = ∑ t : Fin 128, ∑ p : Fin 128, rowF (UK m c) (VK m c) (WK m c) (finProdFinEquiv (t, p)) :=
    Cml.sum_by_blocks (a := 128) (b := 128) (rowF (UK m c) (VK m c) (WK m c))
  rw [e, Cml.sum_fin_as_range _ (0 : EReal)]
  refine Finset.sum_congr rfl fun s hs => ?_
  have h : s < 128 := Finset.mem_range.mp hs
  rw [dif_pos h]
  exact blockSumN_eq m hpre c s h

end Kernel

section Reference

open Cert.ReferenceIdeal Cert.ReferenceIdeal.Gen Cert.ReferenceIdeal.Read

/-- A rank-1 index is its coordinate. -/
def idxEquiv1 : (⟨1, ![16384]⟩ : Shape).Idx ≃ Fin 16384 where
  toFun j := j 0
  invFun r := ix1 r
  left_inv j := (eq_ix1 j).symm
  right_inv _ := rfl

/-- The reference's result: the sum over the batch of the row terms of its gathered arrays. -/
theorem ref_total (x0 x1 : (⟨S100000x64, .f32⟩ : BufTy).Contents (Elt Ideal)) (x2 x3 : (⟨S16384, .i32⟩ : BufTy).Contents (Elt Ideal))
    (x4 : (⟨S16384x100, .i32⟩ : BufTy).Contents (Elt Ideal)) (i : S_.Idx) :
    val_main_v74 (F := Ideal) x0 x1 x2 x3 x4 i
      = ∑ r : Fin 16384, rowF (val_main_v6 (F := Ideal) x0 x2) (val_main_v21 (F := Ideal) x1 x3) (val_main_v36 (F := Ideal) x1 x4) r := by
  rw [val_main_v74_apply]
  rw [show (val_main_cst_20 (F := Ideal)) (Shape.Idx.first h_S_) = 0 from Ideal.ofBits_zero_f32, zero_add]
  refine Fintype.sum_equiv idxEquiv1 _ _ fun j => ?_
  have hj : j = ix1 (idxEquiv1 j) := eq_ix1 j
  rw [hj]
  exact Cert.ReferenceIdeal.RowValue.row_term x0 x1 x2 x3 x4 (idxEquiv1 j)

end Reference

/-- The reference's gathered arrays are the kernel's, as terms of the argument arrays. -/
theorem gather_u (x0 : (⟨2, ![100000, 64]⟩ : Shape).Idx → EReal) (x2 : IVec ⟨1, ![16384]⟩ 32) :
    Cert.ReferenceIdeal.Read.val_main_v6 (F := Ideal) x0 x2
      = Host.gather Cert.KernelIdeal.gather_S100000x64_S16384x1_S16384x64_1_0_n_n_0_1_164 x0 (Cert.KernelIdeal.HostValue.col1 x2) := rfl
theorem gather_v (x1 : (⟨2, ![100000, 64]⟩ : Shape).Idx → EReal) (x3 : IVec ⟨1, ![16384]⟩ 32) :
    Cert.ReferenceIdeal.Read.val_main_v21 (F := Ideal) x1 x3
      = Host.gather Cert.KernelIdeal.gather_S100000x64_S16384x1_S16384x64_1_0_n_n_0_1_164 x1 (Cert.KernelIdeal.HostValue.col1 x3) := rfl
theorem gather_w (x1 : (⟨2, ![100000, 64]⟩ : Shape).Idx → EReal) (x4 : IVec ⟨2, ![16384, 100]⟩ 32) :
    Cert.ReferenceIdeal.Read.val_main_v36 (F := Ideal) x1 x4
      = Host.gather Cert.KernelIdeal.gather_S100000x64_S16384x100x1_S16384x100x64_2_0_n_n_0_2_164 x1 (Cert.KernelIdeal.HostValue.col2 x4) := rfl

end Cert.Proof.Bridge

end
-- ==== Proof.lean ====
/-
  A metric-learning ranking loss, computed two ways.

  For each of 16384 batch rows the program gathers a user vector u, a positive item v and a hundred
  negative items w_k (vectors in R^64, rows of two tables of 100000 rows; a negative index counts from
  the table's end), clips each to the unit ball (x / (|x| + eps) when |x| > 1), and forms the margins
  m_k = 1 + |u - v|^2 - |u - w_k|^2.  The row's term is log (100000 c / 100 + 1) * sum_k max (m_k, 0)
  with c the number of positive margins, and the loss is the sum of the rows' terms.

  The reference computes this on the whole batch at once.  The kernel gathers the same rows, then walks
  the batch in 128 blocks of 128 rows on two cores: each core adds its blocks' sums of row terms into
  a running total, writes the total into one entry of an otherwise zero output block after its last
  block, and the program sums the output.  Over the extended reals the two results are equal: each
  block's rows give the same row terms as the reference's rows (the kernel scales by 1 / (|x| + eps)
  where the reference divides, the same number since |x| + eps is not zero; the kernel counts the
  positive margins by adding ones, the reference by an integer count), and a sum of 16384 terms may be
  grouped into 2 * 64 blocks of 128 in any order.  The kernel's gather replaces a row whose index is out
  of range by a fill value where the reference's gather does not, so the statement assumes every index in
  range of the table, -100000 <= index < 100000; finiteness of the tables is not used.

  The three frames are the generated ones (the reference's from its generated run); nothing was rewritten
  between the kernel and its idealization.
-/
import proofs.«409849_j21861383537472_3_alg».proof.Defs
import proofs.«409849_j21861383537472_3_alg».proof.Proof.Gen.Kernel
import proofs.«409849_j21861383537472_3_alg».proof.Proof.Gen.Kernel.Skeleton
import proofs.«409849_j21861383537472_3_alg».proof.Proof.Gen.Kernel.Launch
import proofs.«409849_j21861383537472_3_alg».proof.Proof.Gen.Kernel.Points
import proofs.«409849_j21861383537472_3_alg».proof.Proof.Gen.Kernel.Frame
import proofs.«409849_j21861383537472_3_alg».proof.Proof.Gen.KernelIdeal
import proofs.«409849_j21861383537472_3_alg».proof.Proof.Gen.KernelIdeal.Skeleton
import proofs.«409849_j21861383537472_3_alg».proof.Proof.Gen.KernelIdeal.Launch
import proofs.«409849_j21861383537472_3_alg».proof.Proof.Gen.KernelIdeal.Points
import proofs.«409849_j21861383537472_3_alg».proof.Proof.Gen.KernelIdeal.Frame
import proofs.«409849_j21861383537472_3_alg».proof.Proof.Gen.ReferenceIdeal
import proofs.«409849_j21861383537472_3_alg».proof.Proof.Gen.Pre_finite_inputs
import proofs.«409849_j21861383537472_3_alg».proof.Proof.Gen.ReferenceIdeal.Run
import proofs.«409849_j21861383537472_3_alg».proof.Proof.Gen.ReferenceIdeal.Read
import proofs.«409849_j21861383537472_3_alg».proof.Proof.Bridge
import Idealize.ShloMosaic.Adequacy
import Idealize.ShloMosaic.Init

noncomputable section

namespace Cert.Proof

open Idealize.ShloMosaic Idealize.SL.Sem

/-- The kernel's program and its idealization run and leave their arguments unchanged. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The loss as the kernel's program leaves it: the sum over the 128 grid points of the points' block sums. -/
def total (m : (ℓ : Loc Cert.KernelIdeal.nD Cert.KernelIdeal.τ Cert.KernelIdeal.sig) → Buf (Elt Ideal) ℓ)
    (c : Dev Cert.KernelIdeal.nD) : (⟨0, ![]⟩ : Shape).Idx → EReal :=
  fun _ => ∑ s ∈ Finset.range 128, Cert.KernelIdeal.AccValue.blockSumN m c s

/-- Both programs end with the same loss: the sum over the batch of the row terms of the same gathered rows. -/
theorem algebraic : Cert.algebraic_KernelIdeal_ReferenceIdeal := by
  intro m ρ m' ρ' hpre hagree
  refine ⟨fun c => total m c, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  funext i
  show _ = ∑ s ∈ Finset.range 128, Cert.KernelIdeal.AccValue.blockSumN m c s
  rw [Bridge.ref_total, Bridge.kernel_total m hpre c, (hagree c).1, (hagree c).2.1, (hagree c).2.2.1,
    (hagree c).2.2.2.1, (hagree c).2.2.2.2, Bridge.gather_u, Bridge.gather_v, Bridge.gather_w]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
